-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S4x3x2048x2048 : Shape := ⟨4, ![4, 3, 2048, 2048]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S4x3x2048x2048 : S_.BroadcastsInDim S4x3x2048x2048 (![] : Fin 0 → Fin S4x3x2048x2048.rank)
  reducesTo_S4x3x2048x2048_S_d0_1_2_3 : S4x3x2048x2048.ReducesTo [0, 1, 2, 3] S_

variable [Facts]

def fn {F : FTy → Type} [FloatOps F] (main_arg0 : FVec F S3x33x33x33 .f32) (main_arg1 : FVec F S4x3x2048x2048 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S4x3x2048x2048 .f32 := Host.absf main_arg1
  let main_cst_0 : FVec F S_ .f32 := constant S_ .f32 0x7F800000#32
  let main_v5 : FVec F S4x3x2048x2048 .f32 := broadcastInDim S4x3x2048x2048 ![] bcast_S_S4x3x2048x2048 main_cst_0
  let main_v6 : IVec S4x3x2048x2048 1 := cmpf .olt main_v4 main_v5
  let main_c_1 : IVec S_ 1 := constantI S_ 1 1#1
  let main_v7 : IVec S_ 1 := (fun x v => Host.reduce IntOp.andi x v reducesTo_S4x3x2048x2048_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S4x3x2048x2048 : Shape := ⟨4, ![4, 3, 2048, 2048]⟩
abbrev S4x1x2048x2048 : Shape := ⟨4, ![4, 1, 2048, 2048]⟩
abbrev S4x2048x2048 : Shape := ⟨3, ![4, 2048, 2048]⟩
abbrev S_ : Shape := ⟨0, ![]⟩
abbrev S3x35937 : Shape := ⟨2, ![3, 35937]⟩
abbrev S1x4x2048x2048 : Shape := ⟨4, ![1, 4, 2048, 2048]⟩
abbrev S4x2048x2048x1 : Shape := ⟨4, ![4, 2048, 2048, 1]⟩
abbrev S3x4x2048x2048 : Shape := ⟨4, ![3, 4, 2048, 2048]⟩
abbrev S1x3x4x2048x2048 : Shape := ⟨5, ![1, 3, 4, 2048, 2048]⟩
abbrev S2x3x4x2048x2048 : Shape := ⟨5, ![2, 3, 4, 2048, 2048]⟩
abbrev S2x3x1x128x2048 : Shape := ⟨5, ![2, 3, 1, 128, 2048]⟩
abbrev S1x1x128x2048 : Shape := ⟨4, ![1, 1, 128, 2048]⟩
abbrev S1x3x128x2048 : Shape := ⟨4, ![1, 3, 128, 2048]⟩
abbrev S128x2048 : Shape := ⟨2, ![128, 2048]⟩
abbrev S1x1x1x128x2048 : Shape := ⟨5, ![1, 1, 1, 128, 2048]⟩

abbrev nBuf : Space → Nat
  | .hbm => 207
  | .vmem => 6
  | .smem => 0
  | _ => 0

abbrev hbmTy0_0 (i : Nat) : BufTy := match i % 128 with
  | 0 => ⟨S3x33x33x33, .f32⟩
  | 1 => ⟨S4x3x2048x2048, .f32⟩
  | 2 => ⟨S4x1x2048x2048, .f32⟩
  | 3 => ⟨S4x2048x2048, .f32⟩
  | 4 => ⟨S4x1x2048x2048, .f32⟩
  | 5 => ⟨S4x2048x2048, .f32⟩
  | 6 => ⟨S4x1x2048x2048, .f32⟩
  | 7 => ⟨S4x2048x2048, .f32⟩
  | 8 => ⟨S_, .f32⟩
  | 9 => ⟨S4x2048x2048, .f32⟩
  | 10 => ⟨S4x2048x2048, .f32⟩
  | 11 => ⟨S4x2048x2048, .f32⟩
  | 12 => ⟨S4x2048x2048, .i32⟩
  | 13 => ⟨S_, .f32⟩
  | 14 => ⟨S4x2048x2048, .f32⟩
  | 15 => ⟨S4x2048x2048, .f32⟩
  | 16 => ⟨S4x2048x2048, .f32⟩
  | 17 => ⟨S4x2048x2048, .i32⟩
  | 18 => ⟨S_, .f32⟩
  | 19 => ⟨S4x2048x2048, .f32⟩
  | 20 => ⟨S4x2048x2048, .f32⟩
  | 21 => ⟨S4x2048x2048, .f32⟩
  | 22 => ⟨S4x2048x2048, .i32⟩
  | 23 => ⟨S4x2048x2048, .f32⟩
  | 24 => ⟨S_, .f32⟩
  | 25 => ⟨S4x2048x2048, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S4x2048x2048, .f32⟩
  | 32 => ⟨S_, .f32⟩
  | 33 => ⟨S4x2048x2048, .f32⟩
  | 34 => ⟨S4x2048x2048, .f32⟩
  | 35 => ⟨S4x2048x2048, .f32⟩
  | 36 => ⟨S_, .f32⟩
  | 37 => ⟨S4x2048x2048, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S_, .f32⟩
  | 45 => ⟨S4x2048x2048, .f32⟩
  | 46 => ⟨S4x2048x2048, .f32⟩
  | 47 => ⟨S_, .i32⟩
  | 48 => ⟨S4x2048x2048, .i32⟩
  | 49 => ⟨S4x2048x2048, .i32⟩
  | 50 => ⟨S4x2048x2048, .i32⟩
  | 51 => ⟨S_, .i32⟩
  | 52 => ⟨S4x2048x2048, .i32⟩
  | 53 => ⟨S4x2048x2048, .i32⟩
  | 54 => ⟨S4x2048x2048, .i32⟩
  | 55 => ⟨S3x35937, .f32⟩
  | 56 => ⟨S1x4x2048x2048, .f32⟩
  | 57 => ⟨S_, .f32⟩
  | 58 => ⟨S1x4x2048x2048, .f32⟩
  | 59 => ⟨S1x4x2048x2048, .f32⟩
  | 60 => ⟨S_, .i32⟩
  | 61 => ⟨S4x2048x2048, .i32⟩
  | 62 => ⟨S4x2048x2048, .i32⟩
  | 63 => ⟨S_, .i32⟩
  | 64 => ⟨S4x2048x2048, .i32⟩
  | 65 => ⟨S4x2048x2048, .i1⟩
  | 66 => ⟨S_, .i32⟩
  | 67 => ⟨S4x2048x2048, .i32⟩
  | 68 => ⟨S4x2048x2048, .i32⟩
  | 69 => ⟨S4x2048x2048, .i32⟩
  | 70 => ⟨S4x2048x2048x1, .i32⟩
  | 71 => ⟨S3x4x2048x2048, .f32⟩
  | 72 => ⟨S3x4x2048x2048, .f32⟩
  | 73 => ⟨S3x4x2048x2048, .f32⟩
  | 74 => ⟨S_, .i32⟩
  | 75 => ⟨S4x2048x2048, .i32⟩
  | 76 => ⟨S4x2048x2048, .i32⟩
  | 77 => ⟨S_, .i32⟩
  | 78 => ⟨S4x2048x2048, .i32⟩
  | 79 => ⟨S4x2048x2048, .i1⟩
  | 80 => ⟨S_, .i32⟩
  | 81 => ⟨S4x2048x2048, .i32⟩
  | 82 => ⟨S4x2048x2048, .i32⟩
  | 83 => ⟨S4x2048x2048, .i32⟩
  | 84 => ⟨S4x2048x2048x1, .i32⟩
  | 85 => ⟨S3x4x2048x2048, .f32⟩
  | 86 => ⟨S3x4x2048x2048, .f32⟩
  | 87 => ⟨S3x4x2048x2048, .f32⟩
  | 88 => ⟨S3x4x2048x2048, .f32⟩
  | 89 => ⟨S_, .f32⟩
  | 90 => ⟨S1x4x2048x2048, .f32⟩
  | 91 => ⟨S1x4x2048x2048, .f32⟩
  | 92 => ⟨S_, .i32⟩
  | 93 => ⟨S4x2048x2048, .i32⟩
  | 94 => ⟨S4x2048x2048, .i32⟩
  | 95 => ⟨S_, .i32⟩
  | 96 => ⟨S4x2048x2048, .i32⟩
  | 97 => ⟨S4x2048x2048, .i1⟩
  | 98 => ⟨S_, .i32⟩
  | 99 => ⟨S4x2048x2048, .i32⟩
  | 100 => ⟨S4x2048x2048, .i32⟩
  | 101 => ⟨S4x2048x2048, .i32⟩
  | 102 => ⟨S4x2048x2048x1, .i32⟩
  | 103 => ⟨S3x4x2048x2048, .f32⟩
  | 104 => ⟨S3x4x2048x2048, .f32⟩
  | 105 => ⟨S3x4x2048x2048, .f32⟩
  | 106 => ⟨S_, .i32⟩
  | 107 => ⟨S4x2048x2048, .i32⟩
  | 108 => ⟨S4x2048x2048, .i32⟩
  | 109 => ⟨S_, .i32⟩
  | 110 => ⟨S4x2048x2048, .i32⟩
  | 111 => ⟨S4x2048x2048, .i1⟩
  | 112 => ⟨S_, .i32⟩
  | 113 => ⟨S4x2048x2048, .i32⟩
  | 114 => ⟨S4x2048x2048, .i32⟩
  | 115 => ⟨S4x2048x2048, .i32⟩
  | 116 => ⟨S4x2048x2048x1, .i32⟩
  | 117 => ⟨S3x4x2048x2048, .f32⟩
  | 118 => ⟨S3x4x2048x2048, .f32⟩
  | 119 => ⟨S3x4x2048x2048, .f32⟩
  | 120 => ⟨S3x4x2048x2048, .f32⟩
  | 121 => ⟨S_, .f32⟩
  | 122 => ⟨S1x4x2048x2048, .f32⟩
  | 123 => ⟨S1x4x2048x2048, .f32⟩
  | 124 => ⟨S_, .i32⟩
  | 125 => ⟨S4x2048x2048, .i32⟩
  | 126 => ⟨S4x2048x2048, .i32⟩
  | 127 => ⟨S_, .i32⟩
  | _ => ⟨S3x33x33x33, .f32⟩

abbrev hbmTy0_1 (i : Nat) : BufTy := match i % 128 with
  | 0 => ⟨S4x2048x2048, .i32⟩
  | 1 => ⟨S4x2048x2048, .i1⟩
  | 2 => ⟨S_, .i32⟩
  | 3 => ⟨S4x2048x2048, .i32⟩
  | 4 => ⟨S4x2048x2048, .i32⟩
  | 5 => ⟨S4x2048x2048, .i32⟩
  | 6 => ⟨S4x2048x2048x1, .i32⟩
  | 7 => ⟨S3x4x2048x2048, .f32⟩
  | 8 => ⟨S3x4x2048x2048, .f32⟩
  | 9 => ⟨S3x4x2048x2048, .f32⟩
  | 10 => ⟨S_, .i32⟩
  | 11 => ⟨S4x2048x2048, .i32⟩
  | 12 => ⟨S4x2048x2048, .i32⟩
  | 13 => ⟨S_, .i32⟩
  | 14 => ⟨S4x2048x2048, .i32⟩
  | 15 => ⟨S4x2048x2048, .i1⟩
  | 16 => ⟨S_, .i32⟩
  | 17 => ⟨S4x2048x2048, .i32⟩
  | 18 => ⟨S4x2048x2048, .i32⟩
  | 19 => ⟨S4x2048x2048, .i32⟩
  | 20 => ⟨S4x2048x2048x1, .i32⟩
  | 21 => ⟨S3x4x2048x2048, .f32⟩
  | 22 => ⟨S3x4x2048x2048, .f32⟩
  | 23 => ⟨S3x4x2048x2048, .f32⟩
  | 24 => ⟨S3x4x2048x2048, .f32⟩
  | 25 => ⟨S_, .f32⟩
  | 26 => ⟨S1x4x2048x2048, .f32⟩
  | 27 => ⟨S1x4x2048x2048, .f32⟩
  | 28 => ⟨S_, .i32⟩
  | 29 => ⟨S4x2048x2048, .i32⟩
  | 30 => ⟨S4x2048x2048, .i32⟩
  | 31 => ⟨S_, .i32⟩
  | 32 => ⟨S4x2048x2048, .i32⟩
  | 33 => ⟨S4x2048x2048, .i1⟩
  | 34 => ⟨S_, .i32⟩
  | 35 => ⟨S4x2048x2048, .i32⟩
  | 36 => ⟨S4x2048x2048, .i32⟩
  | 37 => ⟨S4x2048x2048, .i32⟩
  | 38 => ⟨S4x2048x2048x1, .i32⟩
  | 39 => ⟨S3x4x2048x2048, .f32⟩
  | 40 => ⟨S3x4x2048x2048, .f32⟩
  | 41 => ⟨S3x4x2048x2048, .f32⟩
  | 42 => ⟨S_, .i32⟩
  | 43 => ⟨S4x2048x2048, .i32⟩
  | 44 => ⟨S4x2048x2048, .i32⟩
  | 45 => ⟨S_, .i32⟩
  | 46 => ⟨S4x2048x2048, .i32⟩
  | 47 => ⟨S4x2048x2048, .i1⟩
  | 48 => ⟨S_, .i32⟩
  | 49 => ⟨S4x2048x2048, .i32⟩
  | 50 => ⟨S4x2048x2048, .i32⟩
  | 51 => ⟨S4x2048x2048, .i32⟩
  | 52 => ⟨S4x2048x2048x1, .i32⟩
  | 53 => ⟨S3x4x2048x2048, .f32⟩
  | 54 => ⟨S3x4x2048x2048, .f32⟩
  | 55 => ⟨S3x4x2048x2048, .f32⟩
  | 56 => ⟨S3x4x2048x2048, .f32⟩
  | 57 => ⟨S1x4x2048x2048, .f32⟩
  | 58 => ⟨S_, .f32⟩
  | 59 => ⟨S1x4x2048x2048, .f32⟩
  | 60 => ⟨S1x4x2048x2048, .f32⟩
  | 61 => ⟨S3x4x2048x2048, .f32⟩
  | 62 => ⟨S3x4x2048x2048, .f32⟩
  | 63 => ⟨S3x4x2048x2048, .f32⟩
  | 64 => ⟨S3x4x2048x2048, .f32⟩
  | 65 => ⟨S3x4x2048x2048, .f32⟩
  | 66 => ⟨S_, .f32⟩
  | 67 => ⟨S1x4x2048x2048, .f32⟩
  | 68 => ⟨S1x4x2048x2048, .f32⟩
  | 69 => ⟨S3x4x2048x2048, .f32⟩
  | 70 => ⟨S3x4x2048x2048, .f32⟩
  | 71 => ⟨S3x4x2048x2048, .f32⟩
  | 72 => ⟨S3x4x2048x2048, .f32⟩
  | 73 => ⟨S3x4x2048x2048, .f32⟩
  | 74 => ⟨S1x3x4x2048x2048, .f32⟩
  | 75 => ⟨S1x3x4x2048x2048, .f32⟩
  | 76 => ⟨S2x3x4x2048x2048, .f32⟩
  | 77 => ⟨S4x1x2048x2048, .f32⟩
  | 78 => ⟨S4x3x2048x2048, .f32⟩
  | _ => ⟨S3x33x33x33, .f32⟩

abbrev hbmTy (i : Nat) : BufTy := match i / 128 with
  | 0 => hbmTy0_0 i
  | 1 => hbmTy0_1 i
  | _ => ⟨S3x33x33x33, .f32⟩

abbrev bufTy : (tb : Table) → Fin (tcTables nBuf tb) → BufTy
  | .hbm, ⟨i, _⟩ => hbmTy i
  | .local _ .vmem, ⟨0, _⟩ => ⟨S2x3x1x128x2048, .f32⟩
  | .local _ .vmem, ⟨1, _⟩ => ⟨S2x3x1x128x2048, .f32⟩
  | .local _ .vmem, ⟨2, _⟩ => ⟨S1x1x128x2048, .f32⟩
  | .local _ .vmem, ⟨3, _⟩ => ⟨S1x1x128x2048, .f32⟩
  | .local _ .vmem, ⟨4, _⟩ => ⟨S1x3x128x2048, .f32⟩
  | .local _ .vmem, ⟨5, _⟩ => ⟨S1x3x128x2048, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_c_10 : Ref sig .tc := ⟨.hbm, 60, rfl⟩
abbrev main_v46 : Ref sig .tc := ⟨.hbm, 61, rfl⟩
abbrev main_v47 : Ref sig .tc := ⟨.hbm, 62, rfl⟩
abbrev main_c_11 : Ref sig .tc := ⟨.hbm, 63, rfl⟩
abbrev main_v48 : Ref sig .tc := ⟨.hbm, 64, rfl⟩
abbrev main_v49 : Ref sig .tc := ⟨.hbm, 65, rfl⟩
abbrev main_c_12 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_13 : Ref sig .tc := ⟨.hbm, 74, rfl⟩
abbrev main_v57 : Ref sig .tc := ⟨.hbm, 75, rfl⟩
abbrev main_v58 : Ref sig .tc := ⟨.hbm, 76, rfl⟩
abbrev main_c_14 : Ref sig .tc := ⟨.hbm, 77, rfl⟩
abbrev main_v59 : Ref sig .tc := ⟨.hbm, 78, rfl⟩
abbrev main_v60 : Ref sig .tc := ⟨.hbm, 79, rfl⟩
abbrev main_c_15 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_c_17 : Ref sig .tc := ⟨.hbm, 92, rfl⟩
abbrev main_v71 : Ref sig .tc := ⟨.hbm, 93, rfl⟩
abbrev main_v72 : Ref sig .tc := ⟨.hbm, 94, rfl⟩
abbrev main_c_18 : Ref sig .tc := ⟨.hbm, 95, rfl⟩
abbrev main_v73 : Ref sig .tc := ⟨.hbm, 96, rfl⟩
abbrev main_v74 : Ref sig .tc := ⟨.hbm, 97, rfl⟩
abbrev main_c_19 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_20 : Ref sig .tc := ⟨.hbm, 106, rfl⟩
abbrev main_v82 : Ref sig .tc := ⟨.hbm, 107, rfl⟩
abbrev main_v83 : Ref sig .tc := ⟨.hbm, 108, rfl⟩
abbrev main_c_21 : Ref sig .tc := ⟨.hbm, 109, rfl⟩
abbrev main_v84 : Ref sig .tc := ⟨.hbm, 110, rfl⟩
abbrev main_v85 : Ref sig .tc := ⟨.hbm, 111, rfl⟩
abbrev main_c_22 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_23 : Ref sig .tc := ⟨.hbm, 121, rfl⟩
abbrev main_v94 : Ref sig .tc := ⟨.hbm, 122, rfl⟩
abbrev main_v95 : Ref sig .tc := ⟨.hbm, 123, rfl⟩
abbrev main_c_24 : Ref sig .tc := ⟨.hbm, 124, rfl⟩
abbrev main_v96 : Ref sig .tc := ⟨.hbm, 125, rfl⟩
abbrev main_v97 : Ref sig .tc := ⟨.hbm, 126, rfl⟩
abbrev main_c_25 : Ref sig .tc := ⟨.hbm, 127, rfl⟩
abbrev main_v98 : Ref sig .tc := ⟨.hbm, 128, rfl⟩
abbrev main_v99 : Ref sig .tc := ⟨.hbm, 129, rfl⟩
abbrev main_c_26 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_27 : Ref sig .tc := ⟨.hbm, 138, rfl⟩
abbrev main_v107 : Ref sig .tc := ⟨.hbm, 139, rfl⟩
abbrev main_v108 : Ref sig .tc := ⟨.hbm, 140, rfl⟩
abbrev main_c_28 : Ref sig .tc := ⟨.hbm, 141, rfl⟩
abbrev main_v109 : Ref sig .tc := ⟨.hbm, 142, rfl⟩
abbrev main_v110 : Ref sig .tc := ⟨.hbm, 143, rfl⟩
abbrev main_c_29 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_30 : Ref sig .tc := ⟨.hbm, 153, rfl⟩
abbrev main_v119 : Ref sig .tc := ⟨.hbm, 154, rfl⟩
abbrev main_v120 : Ref sig .tc := ⟨.hbm, 155, rfl⟩
abbrev main_c_31 : Ref sig .tc := ⟨.hbm, 156, rfl⟩
abbrev main_v121 : Ref sig .tc := ⟨.hbm, 157, rfl⟩
abbrev main_v122 : Ref sig .tc := ⟨.hbm, 158, rfl⟩
abbrev main_c_32 : Ref sig .tc := ⟨.hbm, 159, rfl⟩
abbrev main_v123 : Ref sig .tc := ⟨.hbm, 160, rfl⟩
abbrev main_v124 : Ref sig .tc := ⟨.hbm, 161, rfl⟩
abbrev main_c_33 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_34 : Ref sig .tc := ⟨.hbm, 170, rfl⟩
abbrev main_v132 : Ref sig .tc := ⟨.hbm, 171, rfl⟩
abbrev main_v133 : Ref sig .tc := ⟨.hbm, 172, rfl⟩
abbrev main_c_35 : Ref sig .tc := ⟨.hbm, 173, rfl⟩
abbrev main_v134 : Ref sig .tc := ⟨.hbm, 174, rfl⟩
abbrev main_v135 : Ref sig .tc := ⟨.hbm, 175, rfl⟩
abbrev main_c_36 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_37 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_38 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S2x3x1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S4x3x2048x2048_S4x1x2048x2048_0_0_0_0 : S4x3x2048x2048.Slices ![0, 0, 0, 0] S4x1x2048x2048
  shapeCasts_S4x1x2048x2048_S4x2048x2048 : S4x1x2048x2048.ShapeCasts S4x2048x2048
  slices_S4x3x2048x2048_S4x1x2048x2048_0_1_0_0 : S4x3x2048x2048.Slices ![0, 1, 0, 0] S4x1x2048x2048
  slices_S4x3x2048x2048_S4x1x2048x2048_0_2_0_0 : S4x3x2048x2048.Slices ![0, 2, 0, 0] S4x1x2048x2048
  bcast_S_S4x2048x2048 : S_.BroadcastsInDim S4x2048x2048 (![] : Fin 0 → Fin S4x2048x2048.rank)
  shapeCasts_S3x33x33x33_S3x35937 : S3x33x33x33.ShapeCasts S3x35937
  bcast_S4x2048x2048_S1x4x2048x2048_1_2_3 : S4x2048x2048.BroadcastsInDim S1x4x2048x2048 (![1, 2, 3] : Fin 3 → Fin S1x4x2048x2048.rank)
  bcast_S_S1x4x2048x2048 : S_.BroadcastsInDim S1x4x2048x2048 (![] : Fin 0 → Fin S1x4x2048x2048.rank)
  bcast_S4x2048x2048_S4x2048x2048x1_0_1_2 : S4x2048x2048.BroadcastsInDim S4x2048x2048x1 (![0, 1, 2] : Fin 3 → Fin S4x2048x2048x1.rank)
  bcast_S1x4x2048x2048_S3x4x2048x2048_0_1_2_3 : S1x4x2048x2048.BroadcastsInDim S3x4x2048x2048 (![0, 1, 2, 3] : Fin 4 → Fin S3x4x2048x2048.rank)
  bcast_S3x4x2048x2048_S1x3x4x2048x2048_1_2_3_4 : S3x4x2048x2048.BroadcastsInDim S1x3x4x2048x2048 (![1, 2, 3, 4] : Fin 4 → Fin S1x3x4x2048x2048.rank)
  concatenates_S1x3x4x2048x2048_S1x3x4x2048x2048_S2x3x4x2048x2048_d0 : Shape.Concatenates [S1x3x4x2048x2048, S1x3x4x2048x2048] S2x3x4x2048x2048 0
  bcast_S4x2048x2048_S4x1x2048x2048_0_2_3 : S4x2048x2048.BroadcastsInDim S4x1x2048x2048 (![0, 2, 3] : Fin 3 → Fin S4x1x2048x2048.rank)
  inb_S1x1x128x2048_S1x1x128x2048_0_0_0_0 : ∀ a, (![0, 0, 0, 0] : Fin 4 → Nat) a + S1x1x128x2048.size a ≤ S1x1x128x2048.size a
  h_S1x1x128x2048 : 0 < S1x1x128x2048.numel
  shapeCasts_S1x1x128x2048_S128x2048 : S1x1x128x2048.ShapeCasts S128x2048
  inb_S2x3x1x128x2048_S1x1x1x128x2048_0_0_0_0_0 : ∀ a, (![0, 0, 0, 0, 0] : Fin 5 → Nat) a + S1x1x1x128x2048.size a ≤ S2x3x1x128x2048.size a
  h_S1x1x1x128x2048 : 0 < S1x1x1x128x2048.numel
  shapeCasts_S1x1x1x128x2048_S128x2048 : S1x1x1x128x2048.ShapeCasts S128x2048
  inb_S2x3x1x128x2048_S1x1x1x128x2048_1_0_0_0_0 : ∀ a, (![1, 0, 0, 0, 0] : Fin 5 → Nat) a + S1x1x1x128x2048.size a ≤ S2x3x1x128x2048.size a
  inb_S1x3x128x2048_S1x1x128x2048_0_0_0_0 : ∀ a, (![0, 0, 0, 0] : Fin 4 → Nat) a + S1x1x128x2048.size a ≤ S1x3x128x2048.size a
  shapeCasts_S128x2048_S1x1x128x2048 : S128x2048.ShapeCasts S1x1x128x2048
  inb_S2x3x1x128x2048_S1x1x1x128x2048_0_1_0_0_0 : ∀ a, (![0, 1, 0, 0, 0] : Fin 5 → Nat) a + S1x1x1x128x2048.size a ≤ S2x3x1x128x2048.size a
  inb_S2x3x1x128x2048_S1x1x1x128x2048_1_1_0_0_0 : ∀ a, (![1, 1, 0, 0, 0] : Fin 5 → Nat) a + S1x1x1x128x2048.size a ≤ S2x3x1x128x2048.size a
  inb_S1x3x128x2048_S1x1x128x2048_0_1_0_0 : ∀ a, (![0, 1, 0, 0] : Fin 4 → Nat) a + S1x1x128x2048.size a ≤ S1x3x128x2048.size a
  inb_S2x3x1x128x2048_S1x1x1x128x2048_0_2_0_0_0 : ∀ a, (![0, 2, 0, 0, 0] : Fin 5 → Nat) a + S1x1x1x128x2048.size a ≤ S2x3x1x128x2048.size a
  inb_S2x3x1x128x2048_S1x1x1x128x2048_1_2_0_0_0 : ∀ a, (![1, 2, 0, 0, 0] : Fin 5 → Nat) a + S1x1x1x128x2048.size a ≤ S2x3x1x128x2048.size a
  inb_S1x3x128x2048_S1x1x128x2048_0_2_0_0 : ∀ a, (![0, 2, 0, 0] : Fin 4 → Nat) a + S1x1x128x2048.size a ≤ S1x3x128x2048.size a
  gather_S3x35937_S4x2048x2048x1_S3x4x2048x2048_0_1_n_n_1_3_31_wf : GatherDims.WF S3x35937 S4x2048x2048x1 S3x4x2048x2048 [0] [1] [] [1] [] 3 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x1x128x2048.size a ≤ S2x3x4x2048x2048.size a
  hwx0_0 : ∀ i : grid0.Coords, EltTy.bits .f32 = 32 ∨ (Rect.block (s := S2x3x4x2048x2048) S2x3x1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x2048.size a ≤ S4x1x2048x2048.size a
  hwx0_1 : ∀ i : grid0.Coords, EltTy.bits .f32 = 32 ∨ (Rect.block (s := S4x1x2048x2048) S1x1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128x2048.size a ≤ S4x3x2048x2048.size a
  hwx0_2 : ∀ i : grid0.Coords, EltTy.bits .f32 = 32 ∨ (Rect.block (s := S4x3x2048x2048) S1x3x128x2048.size (cc0_transform_2 i) (hinb0_2 i)).WholeWords (EltTy.packing .f32)

variable [Facts₀]

def gather_S3x35937_S4x2048x2048x1_S3x4x2048x2048_0_1_n_n_1_3_31 : GatherDims S3x35937 S4x2048x2048x1 S3x4x2048x2048 where
  offsetDims := [0]
  collapsedSliceDims := [1]
  operandBatchingDims := []
  startIndicesBatchingDims := []
  startIndexMap := [1]
  indexVectorDim := 3
  sliceSizes := ![3, 1]
  wf := gather_S3x35937_S4x2048x2048x1_S3x4x2048x2048_0_1_n_n_1_3_31_wf

abbrev win0_0 : Pipeline.Window sig grid0 :=
  Pipeline.Window.ofSpec (Memref.whole main_v161) S2x3x1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v162) S1x1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v163) S1x3x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S4x3x2048x2048 : Shape := ⟨4, ![4, 3, 2048, 2048]⟩
abbrev S4x1x2048x2048 : Shape := ⟨4, ![4, 1, 2048, 2048]⟩
abbrev S4x2048x2048 : Shape := ⟨3, ![4, 2048, 2048]⟩
abbrev S_ : Shape := ⟨0, ![]⟩
abbrev S3x35937 : Shape := ⟨2, ![3, 35937]⟩
abbrev S4x2048x2048x1 : Shape := ⟨4, ![4, 2048, 2048, 1]⟩
abbrev S3x4x2048x2048 : Shape := ⟨4, ![3, 4, 2048, 2048]⟩
abbrev S1x4x2048x2048 : Shape := ⟨4, ![1, 4, 2048, 2048]⟩

abbrev nBuf : Space → Nat
  | .hbm => 239
  | .vmem => 0
  | .smem => 0
  | _ => 0

abbrev hbmTy0_0 (i : Nat) : BufTy := match i % 128 with
  | 0 => ⟨S3x33x33x33, .f32⟩
  | 1 => ⟨S4x3x2048x2048, .f32⟩
  | 2 => ⟨S4x1x2048x2048, .f32⟩
  | 3 => ⟨S4x2048x2048, .f32⟩
  | 4 => ⟨S4x1x2048x2048, .f32⟩
  | 5 => ⟨S4x2048x2048, .f32⟩
  | 6 => ⟨S4x1x2048x2048, .f32⟩
  | 7 => ⟨S4x2048x2048, .f32⟩
  | 8 => ⟨S_, .f32⟩
  | 9 => ⟨S4x2048x2048, .f32⟩
  | 10 => ⟨S4x2048x2048, .f32⟩
  | 11 => ⟨S4x2048x2048, .f32⟩
  | 12 => ⟨S4x2048x2048, .i32⟩
  | 13 => ⟨S_, .f32⟩
  | 14 => ⟨S4x2048x2048, .f32⟩
  | 15 => ⟨S4x2048x2048, .f32⟩
  | 16 => ⟨S4x2048x2048, .f32⟩
  | 17 => ⟨S4x2048x2048, .i32⟩
  | 18 => ⟨S_, .f32⟩
  | 19 => ⟨S4x2048x2048, .f32⟩
  | 20 => ⟨S4x2048x2048, .f32⟩
  | 21 => ⟨S4x2048x2048, .f32⟩
  | 22 => ⟨S4x2048x2048, .i32⟩
  | 23 => ⟨S4x2048x2048, .f32⟩
  | 24 => ⟨S_, .f32⟩
  | 25 => ⟨S4x2048x2048, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S4x2048x2048, .f32⟩
  | 32 => ⟨S_, .f32⟩
  | 33 => ⟨S4x2048x2048, .f32⟩
  | 34 => ⟨S4x2048x2048, .f32⟩
  | 35 => ⟨S4x2048x2048, .f32⟩
  | 36 => ⟨S_, .f32⟩
  | 37 => ⟨S4x2048x2048, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S_, .f32⟩
  | 45 => ⟨S4x2048x2048, .f32⟩
  | 46 => ⟨S4x2048x2048, .f32⟩
  | 47 => ⟨S3x35937, .f32⟩
  | 48 => ⟨S_, .i32⟩
  | 49 => ⟨S4x2048x2048, .i32⟩
  | 50 => ⟨S4x2048x2048, .i32⟩
  | 51 => ⟨S4x2048x2048, .i32⟩
  | 52 => ⟨S_, .i32⟩
  | 53 => ⟨S4x2048x2048, .i32⟩
  | 54 => ⟨S4x2048x2048, .i32⟩
  | 55 => ⟨S_, .i32⟩
  | 56 => ⟨S4x2048x2048, .i32⟩
  | 57 => ⟨S4x2048x2048, .i32⟩
  | 58 => ⟨S4x2048x2048, .i32⟩
  | 59 => ⟨S_, .f32⟩
  | 60 => ⟨S4x2048x2048, .f32⟩
  | 61 => ⟨S4x2048x2048, .f32⟩
  | 62 => ⟨S_, .f32⟩
  | 63 => ⟨S4x2048x2048, .f32⟩
  | 64 => ⟨S4x2048x2048, .f32⟩
  | 65 => ⟨S4x2048x2048, .f32⟩
  | 66 => ⟨S_, .f32⟩
  | 67 => ⟨S4x2048x2048, .f32⟩
  | 68 => ⟨S4x2048x2048, .f32⟩
  | 69 => ⟨S4x2048x2048, .f32⟩
  | 70 => ⟨S_, .f32⟩
  | 71 => ⟨S4x2048x2048, .f32⟩
  | 72 => ⟨S4x2048x2048, .f32⟩
  | 73 => ⟨S4x2048x2048, .f32⟩
  | 74 => ⟨S_, .f32⟩
  | 75 => ⟨S4x2048x2048, .f32⟩
  | 76 => ⟨S4x2048x2048, .f32⟩
  | 77 => ⟨S4x2048x2048, .f32⟩
  | 78 => ⟨S_, .f32⟩
  | 79 => ⟨S4x2048x2048, .f32⟩
  | 80 => ⟨S4x2048x2048, .f32⟩
  | 81 => ⟨S4x2048x2048, .f32⟩
  | 82 => ⟨S_, .f32⟩
  | 83 => ⟨S4x2048x2048, .f32⟩
  | 84 => ⟨S4x2048x2048, .f32⟩
  | 85 => ⟨S4x2048x2048, .f32⟩
  | 86 => ⟨S4x2048x2048, .f32⟩
  | 87 => ⟨S_, .f32⟩
  | 88 => ⟨S4x2048x2048, .f32⟩
  | 89 => ⟨S4x2048x2048, .f32⟩
  | 90 => ⟨S4x2048x2048, .f32⟩
  | 91 => ⟨S_, .f32⟩
  | 92 => ⟨S4x2048x2048, .f32⟩
  | 93 => ⟨S4x2048x2048, .f32⟩
  | 94 => ⟨S_, .f32⟩
  | 95 => ⟨S4x2048x2048, .f32⟩
  | 96 => ⟨S4x2048x2048, .f32⟩
  | 97 => ⟨S4x2048x2048, .f32⟩
  | 98 => ⟨S4x2048x2048, .f32⟩
  | 99 => ⟨S_, .f32⟩
  | 100 => ⟨S4x2048x2048, .f32⟩
  | 101 => ⟨S4x2048x2048, .f32⟩
  | 102 => ⟨S4x2048x2048, .f32⟩
  | 103 => ⟨S4x2048x2048, .f32⟩
  | 104 => ⟨S_, .f32⟩
  | 105 => ⟨S4x2048x2048, .f32⟩
  | 106 => ⟨S4x2048x2048, .f32⟩
  | 107 => ⟨S4x2048x2048, .f32⟩
  | 108 => ⟨S4x2048x2048, .f32⟩
  | 109 => ⟨S4x2048x2048, .f32⟩
  | 110 => ⟨S4x2048x2048, .f32⟩
  | 111 => ⟨S_, .i32⟩
  | 112 => ⟨S4x2048x2048, .i32⟩
  | 113 => ⟨S4x2048x2048, .i32⟩
  | 114 => ⟨S_, .i32⟩
  | 115 => ⟨S4x2048x2048, .i32⟩
  | 116 => ⟨S4x2048x2048, .i1⟩
  | 117 => ⟨S_, .i32⟩
  | 118 => ⟨S4x2048x2048, .i32⟩
  | 119 => ⟨S4x2048x2048, .i32⟩
  | 120 => ⟨S4x2048x2048, .i32⟩
  | 121 => ⟨S4x2048x2048x1, .i32⟩
  | 122 => ⟨S3x4x2048x2048, .f32⟩
  | 123 => ⟨S1x4x2048x2048, .f32⟩
  | 124 => ⟨S3x4x2048x2048, .f32⟩
  | 125 => ⟨S3x4x2048x2048, .f32⟩
  | 126 => ⟨S_, .i32⟩
  | 127 => ⟨S4x2048x2048, .i32⟩
  | _ => ⟨S3x33x33x33, .f32⟩

abbrev hbmTy0_1 (i : Nat) : BufTy := match i % 128 with
  | 0 => ⟨S4x2048x2048, .i32⟩
  | 1 => ⟨S_, .i32⟩
  | 2 => ⟨S4x2048x2048, .i32⟩
  | 3 => ⟨S4x2048x2048, .i1⟩
  | 4 => ⟨S_, .i32⟩
  | 5 => ⟨S4x2048x2048, .i32⟩
  | 6 => ⟨S4x2048x2048, .i32⟩
  | 7 => ⟨S4x2048x2048, .i32⟩
  | 8 => ⟨S4x2048x2048x1, .i32⟩
  | 9 => ⟨S3x4x2048x2048, .f32⟩
  | 10 => ⟨S1x4x2048x2048, .f32⟩
  | 11 => ⟨S3x4x2048x2048, .f32⟩
  | 12 => ⟨S3x4x2048x2048, .f32⟩
  | 13 => ⟨S3x4x2048x2048, .f32⟩
  | 14 => ⟨S_, .i32⟩
  | 15 => ⟨S4x2048x2048, .i32⟩
  | 16 => ⟨S4x2048x2048, .i32⟩
  | 17 => ⟨S_, .i32⟩
  | 18 => ⟨S4x2048x2048, .i32⟩
  | 19 => ⟨S4x2048x2048, .i1⟩
  | 20 => ⟨S_, .i32⟩
  | 21 => ⟨S4x2048x2048, .i32⟩
  | 22 => ⟨S4x2048x2048, .i32⟩
  | 23 => ⟨S4x2048x2048, .i32⟩
  | 24 => ⟨S4x2048x2048x1, .i32⟩
  | 25 => ⟨S3x4x2048x2048, .f32⟩
  | 26 => ⟨S1x4x2048x2048, .f32⟩
  | 27 => ⟨S3x4x2048x2048, .f32⟩
  | 28 => ⟨S3x4x2048x2048, .f32⟩
  | 29 => ⟨S3x4x2048x2048, .f32⟩
  | 30 => ⟨S_, .i32⟩
  | 31 => ⟨S4x2048x2048, .i32⟩
  | 32 => ⟨S4x2048x2048, .i32⟩
  | 33 => ⟨S_, .i32⟩
  | 34 => ⟨S4x2048x2048, .i32⟩
  | 35 => ⟨S4x2048x2048, .i1⟩
  | 36 => ⟨S_, .i32⟩
  | 37 => ⟨S4x2048x2048, .i32⟩
  | 38 => ⟨S4x2048x2048, .i32⟩
  | 39 => ⟨S4x2048x2048, .i32⟩
  | 40 => ⟨S4x2048x2048x1, .i32⟩
  | 41 => ⟨S3x4x2048x2048, .f32⟩
  | 42 => ⟨S1x4x2048x2048, .f32⟩
  | 43 => ⟨S3x4x2048x2048, .f32⟩
  | 44 => ⟨S3x4x2048x2048, .f32⟩
  | 45 => ⟨S3x4x2048x2048, .f32⟩
  | 46 => ⟨S_, .i32⟩
  | 47 => ⟨S4x2048x2048, .i32⟩
  | 48 => ⟨S4x2048x2048, .i32⟩
  | 49 => ⟨S_, .i32⟩
  | 50 => ⟨S4x2048x2048, .i32⟩
  | 51 => ⟨S4x2048x2048, .i1⟩
  | 52 => ⟨S_, .i32⟩
  | 53 => ⟨S4x2048x2048, .i32⟩
  | 54 => ⟨S4x2048x2048, .i32⟩
  | 55 => ⟨S4x2048x2048, .i32⟩
  | 56 => ⟨S4x2048x2048x1, .i32⟩
  | 57 => ⟨S3x4x2048x2048, .f32⟩
  | 58 => ⟨S1x4x2048x2048, .f32⟩
  | 59 => ⟨S3x4x2048x2048, .f32⟩
  | 60 => ⟨S3x4x2048x2048, .f32⟩
  | 61 => ⟨S3x4x2048x2048, .f32⟩
  | 62 => ⟨S_, .i32⟩
  | 63 => ⟨S4x2048x2048, .i32⟩
  | 64 => ⟨S4x2048x2048, .i32⟩
  | 65 => ⟨S_, .i32⟩
  | 66 => ⟨S4x2048x2048, .i32⟩
  | 67 => ⟨S4x2048x2048, .i1⟩
  | 68 => ⟨S_, .i32⟩
  | 69 => ⟨S4x2048x2048, .i32⟩
  | 70 => ⟨S4x2048x2048, .i32⟩
  | 71 => ⟨S4x2048x2048, .i32⟩
  | 72 => ⟨S4x2048x2048x1, .i32⟩
  | 73 => ⟨S3x4x2048x2048, .f32⟩
  | 74 => ⟨S1x4x2048x2048, .f32⟩
  | 75 => ⟨S3x4x2048x2048, .f32⟩
  | 76 => ⟨S3x4x2048x2048, .f32⟩
  | 77 => ⟨S3x4x2048x2048, .f32⟩
  | 78 => ⟨S_, .i32⟩
  | 79 => ⟨S4x2048x2048, .i32⟩
  | 80 => ⟨S4x2048x2048, .i32⟩
  | 81 => ⟨S_, .i32⟩
  | 82 => ⟨S4x2048x2048, .i32⟩
  | 83 => ⟨S4x2048x2048, .i1⟩
  | 84 => ⟨S_, .i32⟩
  | 85 => ⟨S4x2048x2048, .i32⟩
  | 86 => ⟨S4x2048x2048, .i32⟩
  | 87 => ⟨S4x2048x2048, .i32⟩
  | 88 => ⟨S4x2048x2048x1, .i32⟩
  | 89 => ⟨S3x4x2048x2048, .f32⟩
  | 90 => ⟨S1x4x2048x2048, .f32⟩
  | 91 => ⟨S3x4x2048x2048, .f32⟩
  | 92 => ⟨S3x4x2048x2048, .f32⟩
  | 93 => ⟨S3x4x2048x2048, .f32⟩
  | 94 => ⟨S_, .i32⟩
  | 95 => ⟨S4x2048x2048, .i32⟩
  | 96 => ⟨S4x2048x2048, .i32⟩
  | 97 => ⟨S_, .i32⟩
  | 98 => ⟨S4x2048x2048, .i32⟩
  | 99 => ⟨S4x2048x2048, .i1⟩
  | 100 => ⟨S_, .i32⟩
  | 101 => ⟨S4x2048x2048, .i32⟩
  | 102 => ⟨S4x2048x2048, .i32⟩
  | 103 => ⟨S4x2048x2048, .i32⟩
  | 104 => ⟨S4x2048x2048x1, .i32⟩
  | 105 => ⟨S3x4x2048x2048, .f32⟩
  | 106 => ⟨S1x4x2048x2048, .f32⟩
  | 107 => ⟨S3x4x2048x2048, .f32⟩
  | 108 => ⟨S3x4x2048x2048, .f32⟩
  | 109 => ⟨S3x4x2048x2048, .f32⟩
  | 110 => ⟨S4x3x2048x2048, .f32⟩
  | _ => ⟨S3x33x33x33, .f32⟩

abbrev hbmTy (i : Nat) : BufTy := match i / 128 with
  | 0 => hbmTy0_0 i
  | 1 => hbmTy0_1 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_14 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_15 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_16 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_17 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_18 : Ref sig .tc := ⟨.hbm, 91, rfl⟩
abbrev main_v69 : Ref sig .tc := ⟨.hbm, 92, rfl⟩
abbrev main_v70 : Ref sig .tc := ⟨.hbm, 93, rfl⟩
abbrev main_cst_19 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_20 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_21 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_22 : Ref sig .tc := ⟨.hbm, 111, rfl⟩
abbrev main_v85 : Ref sig .tc := ⟨.hbm, 112, rfl⟩
abbrev main_v86 : Ref sig .tc := ⟨.hbm, 113, rfl⟩
abbrev main_c_23 : Ref sig .tc := ⟨.hbm, 114, rfl⟩
abbrev main_v87 : Ref sig .tc := ⟨.hbm, 115, rfl⟩
abbrev main_v88 : Ref sig .tc := ⟨.hbm, 116, rfl⟩
abbrev main_c_24 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_25 : Ref sig .tc := ⟨.hbm, 126, rfl⟩
abbrev main_v97 : Ref sig .tc := ⟨.hbm, 127, rfl⟩
abbrev main_v98 : Ref sig .tc := ⟨.hbm, 128, rfl⟩
abbrev main_c_26 : Ref sig .tc := ⟨.hbm, 129, rfl⟩
abbrev main_v99 : Ref sig .tc := ⟨.hbm, 130, rfl⟩
abbrev main_v100 : Ref sig .tc := ⟨.hbm, 131, rfl⟩
abbrev main_c_27 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_28 : Ref sig .tc := ⟨.hbm, 142, rfl⟩
abbrev main_v110 : Ref sig .tc := ⟨.hbm, 143, rfl⟩
abbrev main_v111 : Ref sig .tc := ⟨.hbm, 144, rfl⟩
abbrev main_c_29 : Ref sig .tc := ⟨.hbm, 145, rfl⟩
abbrev main_v112 : Ref sig .tc := ⟨.hbm, 146, rfl⟩
abbrev main_v113 : Ref sig .tc := ⟨.hbm, 147, rfl⟩
abbrev main_c_30 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_31 : Ref sig .tc := ⟨.hbm, 158, rfl⟩
abbrev main_v123 : Ref sig .tc := ⟨.hbm, 159, rfl⟩
abbrev main_v124 : Ref sig .tc := ⟨.hbm, 160, rfl⟩
abbrev main_c_32 : Ref sig .tc := ⟨.hbm, 161, rfl⟩
abbrev main_v125 : Ref sig .tc := ⟨.hbm, 162, rfl⟩
abbrev main_v126 : Ref sig .tc := ⟨.hbm, 163, rfl⟩
abbrev main_c_33 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c_34 : Ref sig .tc := ⟨.hbm, 174, rfl⟩
abbrev main_v136 : Ref sig .tc := ⟨.hbm, 175, rfl⟩
abbrev main_v137 : Ref sig .tc := ⟨.hbm, 176, rfl⟩
abbrev main_c_35 : Ref sig .tc := ⟨.hbm, 177, rfl⟩
abbrev main_v138 : Ref sig .tc := ⟨.hbm, 178, rfl⟩
abbrev main_v139 : Ref sig .tc := ⟨.hbm, 179, rfl⟩
abbrev main_c_36 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_c_37 : Ref sig .tc := ⟨.hbm, 190, rfl⟩
abbrev main_v149 : Ref sig .tc := ⟨.hbm, 191, rfl⟩
abbrev main_v150 : Ref sig .tc := ⟨.hbm, 192, rfl⟩
abbrev main_c_38 : Ref sig .tc := ⟨.hbm, 193, rfl⟩
abbrev main_v151 : Ref sig .tc := ⟨.hbm, 194, rfl⟩
abbrev main_v152 : Ref sig .tc := ⟨.hbm, 195, rfl⟩
abbrev main_c_39 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_c_40 : Ref sig .tc := ⟨.hbm, 206, rfl⟩
abbrev main_v162 : Ref sig .tc := ⟨.hbm, 207, rfl⟩
abbrev main_v163 : Ref sig .tc := ⟨.hbm, 208, rfl⟩
abbrev main_c_41 : Ref sig .tc := ⟨.hbm, 209, rfl⟩
abbrev main_v164 : Ref sig .tc := ⟨.hbm, 210, rfl⟩
abbrev main_v165 : Ref sig .tc := ⟨.hbm, 211, rfl⟩
abbrev main_c_42 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_c_43 : Ref sig .tc := ⟨.hbm, 222, rfl⟩
abbrev main_v175 : Ref sig .tc := ⟨.hbm, 223, rfl⟩
abbrev main_v176 : Ref sig .tc := ⟨.hbm, 224, rfl⟩
abbrev main_c_44 : Ref sig .tc := ⟨.hbm, 225, rfl⟩
abbrev main_v177 : Ref sig .tc := ⟨.hbm, 226, rfl⟩
abbrev main_v178 : Ref sig .tc := ⟨.hbm, 227, rfl⟩
abbrev main_c_45 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩

abbrev nD : Nat := 1
abbrev τ : Topo := Topo.v7x

variable {F : FTy → Type} [FloatOps F]

class Facts₀ : Prop where
  slices_S4x3x2048x2048_S4x1x2048x2048_0_0_0_0 : S4x3x2048x2048.Slices ![0, 0, 0, 0] S4x1x2048x2048
  shapeCasts_S4x1x2048x2048_S4x2048x2048 : S4x1x2048x2048.ShapeCasts S4x2048x2048
  slices_S4x3x2048x2048_S4x1x2048x2048_0_1_0_0 : S4x3x2048x2048.Slices ![0, 1, 0, 0] S4x1x2048x2048
  slices_S4x3x2048x2048_S4x1x2048x2048_0_2_0_0 : S4x3x2048x2048.Slices ![0, 2, 0, 0] S4x1x2048x2048
  bcast_S_S4x2048x2048 : S_.BroadcastsInDim S4x2048x2048 (![] : Fin 0 → Fin S4x2048x2048.rank)
  shapeCasts_S3x33x33x33_S3x35937 : S3x33x33x33.ShapeCasts S3x35937
  bcast_S4x2048x2048_S4x2048x2048x1_0_1_2 : S4x2048x2048.BroadcastsInDim S4x2048x2048x1 (![0, 1, 2] : Fin 3 → Fin S4x2048x2048x1.rank)
  bcast_S4x2048x2048_S1x4x2048x2048_1_2_3 : S4x2048x2048.BroadcastsInDim S1x4x2048x2048 (![1, 2, 3] : Fin 3 → Fin S1x4x2048x2048.rank)
  bcast_S1x4x2048x2048_S3x4x2048x2048_0_1_2_3 : S1x4x2048x2048.BroadcastsInDim S3x4x2048x2048 (![0, 1, 2, 3] : Fin 4 → Fin S3x4x2048x2048.rank)
  transposes_S3x4x2048x2048_S4x3x2048x2048_1_0_2_3 : S3x4x2048x2048.Transposes [1, 0, 2, 3] S4x3x2048x2048
  gather_S3x35937_S4x2048x2048x1_S3x4x2048x2048_0_1_n_n_1_3_31_wf : GatherDims.WF S3x35937 S4x2048x2048x1 S3x4x2048x2048 [0] [1] [] [1] [] 3 ![3, 1]

variable [Facts₀]

def gather_S3x35937_S4x2048x2048x1_S3x4x2048x2048_0_1_n_n_1_3_31 : GatherDims S3x35937 S4x2048x2048x1 S3x4x2048x2048 where
  offsetDims := [0]
  collapsedSliceDims := [1]
  operandBatchingDims := []
  startIndicesBatchingDims := []
  startIndexMap := [1]
  indexVectorDim := 3
  sliceSizes := ![3, 1]
  wf := gather_S3x35937_S4x2048x2048x1_S3x4x2048x2048_0_1_n_n_1_3_31_wf

class Facts : Prop extends Facts₀ where

variable [Facts]
-- ==== Proof.Spec.lean ====
/-
  What the kernel's host program computes before its pallas_call, and what the pallas_call computes from it, as
  named array functions.

  Each pixel `(n, h, w)` of image `n` has three colour values `x[n, 0..2, h, w]`.  A value `v` falls in the lattice
  cell `cell v = ⌊v / s⌋` (as a 32-bit integer; `s` the lattice spacing) at the fractional position
  `frac v = (v - cell v · s) / s`.  The three cells give a flat index `base` into the table reshaped to
  `[3, 33³]`; the eight corners of the cell are the table's entries at `base + off` for the eight offsets
  `0, 1, 33, 34, 1089, 1090, 1122, 1123` (a negative index wrapped once, then clamped by the gather).
  `lerp t a b = (1 - t) · a + t · b` blends two corner arrays by a per-pixel weight.  The host program blends
  along red, then green, and hands the kernel the two blue planes stacked (`corners`) and the blue fraction
  (`blueFrac`); the kernel's body blends the two planes by the blue fraction (`blendArr`).
-/
import proofs.«412451_j3358664425830_3_alg».proof.Proof.Gen.KernelIdeal
import Idealize.ShloMosaic.Lib.ValueIdx

noncomputable section

namespace Cert.LutBlend

open Idealize.ShloMosaic Idealize.ShloMosaic.TcCoe Idealize.ShloMosaic.ValueIdx
open Cert.KernelIdeal Cert.KernelIdeal.Gen

variable {F : FTy → Type} [FloatOps F]

/-- The lattice spacing (the f32 nearest to 1.000001 / 32) at every pixel. -/
def spacing : FVec F S4x2048x2048 .f32 :=
  broadcastInDim S4x2048x2048 ![] bcast_S_S4x2048x2048 (constant S_ .f32 0x3D000008#32)

/-- An integer constant at every pixel. -/
def pixConst (k : BitVec 32) : IVec S4x2048x2048 32 :=
  broadcastInDim S4x2048x2048 ![] bcast_S_S4x2048x2048 (constantI S_ 32 k)

/-- The red values of every pixel. -/
def red (x : FVec F S4x3x2048x2048 .f32) : FVec F S4x2048x2048 .f32 :=
  shapeCast S4x2048x2048 (extractStridedSlice S4x1x2048x2048 ![0, 0, 0, 0] x slices_S4x3x2048x2048_S4x1x2048x2048_0_0_0_0) shapeCasts_S4x1x2048x2048_S4x2048x2048
/-- The green values of every pixel. -/
def green (x : FVec F S4x3x2048x2048 .f32) : FVec F S4x2048x2048 .f32 :=
  shapeCast S4x2048x2048 (extractStridedSlice S4x1x2048x2048 ![0, 1, 0, 0] x slices_S4x3x2048x2048_S4x1x2048x2048_0_1_0_0) shapeCasts_S4x1x2048x2048_S4x2048x2048
/-- The blue values of every pixel. -/
def blue (x : FVec F S4x3x2048x2048 .f32) : FVec F S4x2048x2048 .f32 :=
  shapeCast S4x2048x2048 (extractStridedSlice S4x1x2048x2048 ![0, 2, 0, 0] x slices_S4x3x2048x2048_S4x1x2048x2048_0_2_0_0) shapeCasts_S4x1x2048x2048_S4x2048x2048

/-- The lattice cell a value falls in: `⌊v / s⌋` as a 32-bit integer. -/
def cell (v : FVec F S4x2048x2048 .f32) : IVec S4x2048x2048 32 :=
  fptosi 32 (Host.floor (Host.divf v spacing))

/-- The position of a value inside its cell: `(v - cell v · s) / s`. -/
def frac (v : FVec F S4x2048x2048 .f32) : FVec F S4x2048x2048 .f32 :=
  Host.divf (subf v (mulf (sitofp .f32 (cell v)) spacing)) spacing

/-- The flat table index of a pixel's cell: red + 33 · green + 1089 · blue. -/
def base (x : FVec F S4x3x2048x2048 .f32) : IVec S4x2048x2048 32 :=
  addi (addi (cell (red x)) (muli (cell (green x)) (pixConst 33#32))) (muli (cell (blue x)) (pixConst 1089#32))

/-- The table with its three lattice axes flattened: `[3, 33³]`. -/
def flatTable (lut : FVec F S3x33x33x33 .f32) : FVec F S3x35937 .f32 :=
  shapeCast S3x35937 lut shapeCasts_S3x33x33x33_S3x35937

/-- A flat index with a negative value wrapped once by the table's length. -/
def wrapIdx (b : IVec S4x2048x2048 32) : IVec S4x2048x2048 32 :=
  select (cmpi .slt b (pixConst 0#32)) (addi b (pixConst 35937#32)) b

/-- The table's entries, all three channels, at every pixel's flat index `b + off`: one corner of the cell. -/
def corner (tab : FVec F S3x35937 .f32) (b : IVec S4x2048x2048 32) (off : BitVec 32) : FVec F S3x4x2048x2048 .f32 :=
  Host.gather gather_S3x35937_S4x2048x2048x1_S3x4x2048x2048_0_1_n_n_1_3_31 tab
    (broadcastInDim S4x2048x2048x1 ![0, 1, 2] bcast_S4x2048x2048_S4x2048x2048x1_0_1_2 (wrapIdx (addi b (pixConst off))))

/-- A per-pixel weight given a leading unit axis. -/
def weight1 (t : FVec F S4x2048x2048 .f32) : FVec F S1x4x2048x2048 .f32 :=
  broadcastInDim S1x4x2048x2048 ![1, 2, 3] bcast_S4x2048x2048_S1x4x2048x2048_1_2_3 t

/-- `(1 - t) · a + t · b`, the weight `t` per pixel, the same for the three channels. -/
def lerp (t : FVec F S4x2048x2048 .f32) (a b : FVec F S3x4x2048x2048 .f32) : FVec F S3x4x2048x2048 .f32 :=
  addf
    (mulf (broadcastInDim S3x4x2048x2048 ![0, 1, 2, 3] bcast_S1x4x2048x2048_S3x4x2048x2048_0_1_2_3
        (subf (broadcastInDim S1x4x2048x2048 ![] bcast_S_S1x4x2048x2048 (constant S_ .f32 0x3F800000#32)) (weight1 t))) a)
    (mulf (broadcastInDim S3x4x2048x2048 ![0, 1, 2, 3] bcast_S1x4x2048x2048_S3x4x2048x2048_0_1_2_3 (weight1 t)) b)

/-- One blue plane: the four corners of a lattice face blended along red, then along green. -/
def plane (rd gd : FVec F S4x2048x2048 .f32) (g00 g10 g01 g11 : FVec F S3x4x2048x2048 .f32) : FVec F S3x4x2048x2048 .f32 :=
  lerp gd (lerp rd g00 g10) (lerp rd g01 g11)

/-- Two planes stacked on a new leading axis. -/
def stack2 (p0 p1 : FVec F S3x4x2048x2048 .f32) : FVec F S2x3x4x2048x2048 .f32 :=
  concatenate S2x3x4x2048x2048 0
    [⟨S1x3x4x2048x2048, broadcastInDim S1x3x4x2048x2048 ![1, 2, 3, 4] bcast_S3x4x2048x2048_S1x3x4x2048x2048_1_2_3_4 p0⟩,
     ⟨S1x3x4x2048x2048, broadcastInDim S1x3x4x2048x2048 ![1, 2, 3, 4] bcast_S3x4x2048x2048_S1x3x4x2048x2048_1_2_3_4 p1⟩]
    concatenates_S1x3x4x2048x2048_S1x3x4x2048x2048_S2x3x4x2048x2048_d0

/-- The kernel's first operand: the lower and upper blue planes of every pixel's cell, already blended along red and green. -/
def corners (lut : FVec F S3x33x33x33 .f32) (x : FVec F S4x3x2048x2048 .f32) : FVec F S2x3x4x2048x2048 .f32 :=
  stack2
    (plane (frac (red x)) (frac (green x))
      (corner (flatTable lut) (base x) 0#32) (corner (flatTable lut) (base x) 1#32)
      (corner (flatTable lut) (base x) 33#32) (corner (flatTable lut) (base x) 34#32))
    (plane (frac (red x)) (frac (green x))
      (corner (flatTable lut) (base x) 1089#32) (corner (flatTable lut) (base x) 1090#32)
      (corner (flatTable lut) (base x) 1122#32) (corner (flatTable lut) (base x) 1123#32))

/-- The kernel's second operand: the blue fraction of every pixel, with a unit channel axis. -/
def blueFrac (x : FVec F S4x3x2048x2048 .f32) : FVec F S4x1x2048x2048 .f32 :=
  broadcastInDim S4x1x2048x2048 ![0, 2, 3] bcast_S4x2048x2048_S4x1x2048x2048_0_2_3 (frac (blue x))

/-- The kernel body's result at pixel `(n, h, w)`, channel `c`: the two planes blended by the blue fraction. -/
def blendPix (cr : S2x3x4x2048x2048.Idx → F .f32) (bd : S4x1x2048x2048.Idx → F .f32) (n : Fin 4) (c : Fin 3) (h w : Fin 2048) : F .f32 :=
  FloatOps.addf
    (FloatOps.mulf (FloatOps.subf (Scalar.ofBits .f32 0x3F800000#32) (bd (ix4 n 0 h w))) (cr (ix5 0 c n h w)))
    (FloatOps.mulf (bd (ix4 n 0 h w)) (cr (ix5 1 c n h w)))

/-- The kernel's result array, index by index. -/
def blendArr (cr : S2x3x4x2048x2048.Idx → F .f32) (bd : S4x1x2048x2048.Idx → F .f32) : S4x3x2048x2048.Idx → F .f32 :=
  fun i => blendPix cr bd (i 0) (i 1) (i 2) (i 3)

end Cert.LutBlend

end
-- ==== Proof.BodyValue.lean ====
/-
  The kernel body at one grid point, as a function of the blocks it loads.

  The body loads the blue fraction's block `bd` (128 rows × 2048 columns) once and, for each of the three
  channels, the channel's slab of the lower and of the upper plane's block, and stores
  `(1 - bd) · lower + bd · upper` into the channel's slab of the output block.  The three stores tile the output
  block, and each store's payload is the blend at the slab's own rows and columns, so the block the body leaves is
  the blend, channel by channel (`out_eq`).  The vector shape casts between the 2-D tile the arithmetic runs on
  and the 4-D / 5-D blocks keep each element's row and column.
-/
import proofs.«412451_j3358664425830_3_alg».proof.Proof.Gen.KernelIdeal.Frame
import proofs.«412451_j3358664425830_3_alg».proof.Proof.Spec
import Idealize.ShloMosaic.Lib.Pipeline.Value
import Idealize.ShloMosaic.Lib.ValueIdx

noncomputable section

namespace Cert.LutBlend

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-! ## The body: one block from two -/

/-- The blend at row `p`, column `q`, channel `ch` of a block, from the planes' block and the fraction's block. -/
def blkPix (x0 : Vec F S2x3x1x128x2048 .f32) (x1 : Vec F S1x1x128x2048 .f32) (ch : Fin 3) (p : Fin 128) (q : Fin 2048) : F .f32 :=
  FloatOps.addf
    (FloatOps.mulf (FloatOps.subf (Scalar.ofBits .f32 0x3F800000#32) (x1 (ix4 0 0 p q))) (x0 (ix5 0 ch 0 p q)))
    (FloatOps.mulf (x1 (ix4 0 0 p q)) (x0 (ix5 1 ch 0 p q)))

/-- The output block as one function of the two input blocks. -/
def blendBlk (x0 : Vec F S2x3x1x128x2048 .f32) (x1 : Vec F S1x1x128x2048 .f32) : Vec F S1x3x128x2048 .f32 :=
  fun y => blkPix x0 x1 (y 1) (y 2) (y 3)

/-- A [128, 2048] tile seen as [1, 1, 128, 2048] reads its own row and column. -/
theorem tile_to4 {α : Type} (u : S128x2048.Idx → α) (p : Fin 128) (q : Fin 2048) :
    shapeCast S1x1x128x2048 u shapeCasts_S128x2048_S1x1x128x2048 (ix4 0 0 p q) = u (ix2 p q) :=
  shapeCast_apply u _ (ix4 0 0 p q) (ix2 p q) (by
    rw [Shape.rowMajor_val_two, Shape.rowMajor_val_four]
    show p.val * 2048 + q.val = ((0 * 1 + 0) * 128 + p.val) * 2048 + q.val
    omega)

/-- A [1, 1, 128, 2048] block seen as a [128, 2048] tile. -/
theorem tile_of4 {α : Type} (u : S1x1x128x2048.Idx → α) (p : Fin 128) (q : Fin 2048) :
    shapeCast S128x2048 u shapeCasts_S1x1x128x2048_S128x2048 (ix2 p q) = u (ix4 0 0 p q) :=
  shapeCast_apply u _ (ix2 p q) (ix4 0 0 p q) (by
    rw [Shape.rowMajor_val_two, Shape.rowMajor_val_four]
    show ((0 * 1 + 0) * 128 + p.val) * 2048 + q.val = p.val * 2048 + q.val
    omega)

/-- A [1, 1, 1, 128, 2048] block seen as a [128, 2048] tile. -/
theorem tile_of5 {α : Type} (u : S1x1x1x128x2048.Idx → α) (p : Fin 128) (q : Fin 2048) :
    shapeCast S128x2048 u shapeCasts_S1x1x1x128x2048_S128x2048 (ix2 p q) = u (ix5 0 0 0 p q) :=
  shapeCast_apply u _ (ix2 p q) (ix5 0 0 0 p q) (by
    rw [Shape.rowMajor_val_two, Shape.rowMajor_val_five]
    show (((0 * 1 + 0) * 1 + 0) * 128 + p.val) * 2048 + q.val = p.val * 2048 + q.val
    omega)

/-- The body's arithmetic for one channel — the blue fraction's block `v0`, the channel's lower and upper plane
    blocks `va`, `vb` — at a row and a column. -/
theorem chanPay_apply (v0 : Vec F S1x1x128x2048 .f32) (va vb : Vec F S1x1x1x128x2048 .f32) (p : Fin 128) (q : Fin 2048) :
    shapeCast S1x1x128x2048
        (addf (mulf (subf (broadcast S128x2048 (Scalar.ofBits (F := F) .f32 0x3F800000#32))
                  (shapeCast S128x2048 v0 shapeCasts_S1x1x128x2048_S128x2048))
                (shapeCast S128x2048 va shapeCasts_S1x1x1x128x2048_S128x2048))
              (mulf (shapeCast S128x2048 v0 shapeCasts_S1x1x128x2048_S128x2048)
                (shapeCast S128x2048 vb shapeCasts_S1x1x1x128x2048_S128x2048)))
        shapeCasts_S128x2048_S1x1x128x2048 (ix4 0 0 p q)
      = FloatOps.addf
          (FloatOps.mulf (FloatOps.subf (Scalar.ofBits .f32 0x3F800000#32) (v0 (ix4 0 0 p q))) (va (ix5 0 0 0 p q)))
          (FloatOps.mulf (v0 (ix4 0 0 p q)) (vb (ix5 0 0 0 p q))) := by
  rw [tile_to4]
  show FloatOps.addf
      (FloatOps.mulf (FloatOps.subf (Scalar.ofBits .f32 0x3F800000#32)
          (shapeCast S128x2048 v0 shapeCasts_S1x1x128x2048_S128x2048 (ix2 p q)))
        (shapeCast S128x2048 va shapeCasts_S1x1x1x128x2048_S128x2048 (ix2 p q)))
      (FloatOps.mulf (shapeCast S128x2048 v0 shapeCasts_S1x1x128x2048_S128x2048 (ix2 p q))
        (shapeCast S128x2048 vb shapeCasts_S1x1x1x128x2048_S128x2048 (ix2 p q))) = _
  rw [tile_of4, tile_of5, tile_of5]

/-- The index a load of one plane's one-channel slab reads: plane `s`, channel `k`. -/
theorem slab5_idx (s k : Nat) (inb : ∀ a, (![s, k, 0, 0, 0] : Fin 5 → Nat) a + S1x1x1x128x2048.size a ≤ S2x3x1x128x2048.size a)
    (hs : s < 2) (hk : k < 3) (p : Fin 128) (q : Fin 2048) :
    (Rect.unit (s := S2x3x1x128x2048) ![s, k, 0, 0, 0] S1x1x1x128x2048.size inb).idx (ix5 0 0 0 p q)
      = ix5 ⟨s, hs⟩ ⟨k, hk⟩ 0 p q := by
  funext a; apply Fin.ext
  match a with
  | ⟨0, _⟩ => show s + 1 * 0 = s; omega
  | ⟨1, _⟩ => show k + 1 * 0 = k; omega
  | ⟨2, _⟩ => show 0 + 1 * 0 = 0; omega
  | ⟨3, _⟩ => show 0 + 1 * p.val = p.val; omega
  | ⟨4, _⟩ => show 0 + 1 * q.val = q.val; omega

/-- The block index a store into channel `k`'s slab of the output block writes. -/
theorem slab4_emb (k : Nat) (inb : ∀ a, (![0, k, 0, 0] : Fin 4 → Nat) a + S1x1x128x2048.size a ≤ S1x3x128x2048.size a)
    (hk : k < 3) (p : Fin 128) (q : Fin 2048) :
    (Rect.unit (s := S1x3x128x2048) ![0, k, 0, 0] S1x1x128x2048.size inb).emb (ix4 0 0 p q) = ix4 0 ⟨k, hk⟩ p q := by
  funext a; apply Fin.ext
  match a with
  | ⟨0, _⟩ => show 0 + 1 * 0 = 0; omega
  | ⟨1, _⟩ => show k + 1 * 0 = k; omega
  | ⟨2, _⟩ => show 0 + 1 * p.val = p.val; omega
  | ⟨3, _⟩ => show 0 + 1 * q.val = q.val; omega

theorem hz4 : (![0, 0, 0, 0] : Fin 4 → Nat) = fun _ => 0 := funext fun a => by fin_cases a <;> rfl

/-- An index of a one-channel slab is a row and a column. -/
theorem slab_idx (j : S1x1x128x2048.Idx) : ∃ (p : Fin 128) (q : Fin 2048), j = ix4 0 0 p q := by
  refine ⟨j 2, j 3, ?_⟩
  have e := eq_ix4 j
  have h0 : j 0 = (0 : Fin 1) := Fin.ext (by have h : (j 0).val < 1 := (j 0).isLt; show (j 0).val = 0; omega)
  have h1 : j 1 = (0 : Fin 1) := Fin.ext (by have h : (j 1).val < 1 := (j 1).isLt; show (j 1).val = 0; omega)
  rw [h0, h1] at e
  exact e

/-- WHAT THE BODY LEAVES in the output block: the blend, channel by channel (its three stores tile the block, each
    with the blend at the slab's own indices). -/
theorem out_eq (x0 : Vec F S2x3x1x128x2048 .f32) (x1 : Vec F S1x1x128x2048 .f32) : out0_2 x0 x1 = blendBlk x0 x1 := by
  funext y
  unfold out0_2
  rw [View.ld_unit_zero hz4]
  refine View.canon_apply_of_pieces (blendBlk x0 x1) _ (fun pc hpc => ?_) y (cover0_2 _ _ _ y)
  simp only [List.mem_cons, List.mem_nil_iff, or_false] at hpc
  rcases hpc with rfl | rfl | rfl
  · intro j
    obtain ⟨p, q, rfl⟩ := slab_idx j
    show k0_pay1 (k0_pay2 x1) (k0_pay3 x1) (View.ld x0 r0_7) (View.ld x0 r0_8) (ix4 0 0 p q) = blendBlk x0 x1 (r0_9.emb (ix4 0 0 p q))
    rw [slab4_emb 2 _ (by decide) p q]
    refine (chanPay_apply x1 (View.ld x0 r0_7) (View.ld x0 r0_8) p q).trans ?_
    show FloatOps.addf (FloatOps.mulf (FloatOps.subf _ (x1 (ix4 0 0 p q))) (x0 (r0_7.idx (ix5 0 0 0 p q))))
      (FloatOps.mulf (x1 (ix4 0 0 p q)) (x0 (r0_8.idx (ix5 0 0 0 p q)))) = _
    rw [slab5_idx 0 2 _ (by decide) (by decide) p q, slab5_idx 1 2 _ (by decide) (by decide) p q]
    rfl
  · intro j
    obtain ⟨p, q, rfl⟩ := slab_idx j
    show k0_pay5 x1 (View.ld x0 r0_4) (View.ld x0 r0_5) (ix4 0 0 p q) = blendBlk x0 x1 (r0_6.emb (ix4 0 0 p q))
    rw [slab4_emb 1 _ (by decide) p q]
    refine (chanPay_apply x1 (View.ld x0 r0_4) (View.ld x0 r0_5) p q).trans ?_
    show FloatOps.addf (FloatOps.mulf (FloatOps.subf _ (x1 (ix4 0 0 p q))) (x0 (r0_4.idx (ix5 0 0 0 p q))))
      (FloatOps.mulf (x1 (ix4 0 0 p q)) (x0 (r0_5.idx (ix5 0 0 0 p q)))) = _
    rw [slab5_idx 0 1 _ (by decide) (by decide) p q, slab5_idx 1 1 _ (by decide) (by decide) p q]
    rfl
  · intro j
    obtain ⟨p, q, rfl⟩ := slab_idx j
    show k0_pay4 x1 (View.ld x0 r0_1) (View.ld x0 r0_2) (ix4 0 0 p q) = blendBlk x0 x1 (r0_3.emb (ix4 0 0 p q))
    rw [slab4_emb 0 _ (by decide) p q]
    refine (chanPay_apply x1 (View.ld x0 r0_1) (View.ld x0 r0_2) p q).trans ?_
    show FloatOps.addf (FloatOps.mulf (FloatOps.subf _ (x1 (ix4 0 0 p q))) (x0 (r0_1.idx (ix5 0 0 0 p q))))
      (FloatOps.mulf (x1 (ix4 0 0 p q)) (x0 (r0_2.idx (ix5 0 0 0 p q)))) = _
    rw [slab5_idx 0 0 _ (by decide) (by decide) p q, slab5_idx 1 0 _ (by decide) (by decide) p q]
    rfl

end Cert.LutBlend

end
-- ==== Proof.KernelValue.lean ====
/-
  The kernel's result array, from its pallas_call's grid of blocks.

  Grid point `t = (n, hb)` works on image `n`, rows `128·hb … 128·hb + 127`, all 2048 columns: the output window's
  block index is `(n, 0, hb, 0)`, the planes' `(0, 0, n, hb, 0)`, the blue fraction's `(n, 0, hb, 0)`.  The block
  the point writes back is therefore the blend of the two operand arrays at the block's own pixels
  (`flushed_eq`); the 64 blocks tile the output array (`cover`); hence the output array is the blend of the two
  operand arrays everywhere (`final`).
-/
import proofs.«412451_j3358664425830_3_alg».proof.Proof.Gen.KernelIdeal.Value
import proofs.«412451_j3358664425830_3_alg».proof.Proof.BodyValue

noncomputable section

namespace Cert.LutBlend

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The printed index maps over the 64 grid points: the planes' window and the fraction's window sit at the output
    window's image and row block; every other block index is zero; the image is below 4 and the row block below 16. -/
theorem idx_facts : ∀ t : Fin cfg0.N,
    win0_0.index t (0 : Fin 5) = 0 ∧ win0_0.index t (1 : Fin 5) = 0 ∧ win0_0.index t (2 : Fin 5) = win0_2.index t (0 : Fin 4)
    ∧ win0_0.index t (3 : Fin 5) = win0_2.index t (2 : Fin 4) ∧ win0_0.index t (4 : Fin 5) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 3 ∧ win0_2.index t (2 : Fin 4) ≤ 15 :=
  (by decide +kernel : ∀ t : Fin grid0.N, _)

/-- Every image and row block is some grid point's. -/
theorem idx_onto : ∀ (q0 : Fin 4) (q2 : Fin 16), ∃ t : Fin cfg0.N, win0_2.index t = ![q0.val, 0, q2.val, 0] :=
  (by decide +kernel : ∀ (q0 : Fin 4) (q2 : Fin 16), ∃ t : Fin grid0.N, win0_2.index t = ![q0.val, 0, q2.val, 0])

/-- WHAT POINT `t` WRITES BACK is block `t` of the blend of the two operand arrays as the region finds them. -/
theorem flushed_eq (c : Dev nD) (t : Fin cfg0.N) :
    (dats m 0 c).flushed 2 t
      = ((cfg0.win 2).blk t).view.read (Elt F) (blendArr (V m c main_v161) (V m c main_v162)) := by
  rw [Cert.KernelIdeal.Value.flushed2, out_eq (iblk m c 0 t) (iblk m c 1 t)]
  obtain ⟨e00, e01, e02, e03, e04, e10, e11, e12, e13, e21, e23, b0, b2⟩ := idx_facts t
  funext y
  obtain ⟨a, ch, p, q, rfl⟩ : ∃ (a : Fin 1) (ch : Fin 3) (p : Fin 128) (q : Fin 2048), y = ix4 a ch p q :=
    ⟨y 0, y 1, y 2, y 3, eq_ix4 y⟩
  have ha : a.val = 0 := by have := a.isLt; omega
  -- the pixel the block index `(a, ch, p, q)` of point `t` is: image `N`, row `H`, column `q`
  let N : Fin 4 := ⟨win0_2.index t (0 : Fin 4), by omega⟩
  let H : Fin 2048 := ⟨win0_2.index t (2 : Fin 4) * 128 + p.val, by have := p.isLt; omega⟩
  have hE : (((cfg0.win 2).blk t).view.emb (ix4 a ch p q) : S4x3x2048x2048.Idx) = ix4 N ch H q := by
    funext b; apply Fin.ext
    match b with
    | ⟨0, _⟩ => show win0_2.index t (0 : Fin 4) * 1 + 1 * a.val = win0_2.index t (0 : Fin 4); omega
    | ⟨1, _⟩ => show win0_2.index t (1 : Fin 4) * 3 + 1 * ch.val = ch.val; omega
    | ⟨2, _⟩ => show win0_2.index t (2 : Fin 4) * 128 + 1 * p.val = win0_2.index t (2 : Fin 4) * 128 + p.val; omega
    | ⟨3, _⟩ => show win0_2.index t (3 : Fin 4) * 2048 + 1 * q.val = q.val; omega
  have h1 : (((cfg0.win 1).blk t).view.emb (ix4 0 0 p q) : S4x1x2048x2048.Idx) = ix4 N 0 H q := by
    funext b; apply Fin.ext
    match b with
    | ⟨0, _⟩ => show win0_1.index t (0 : Fin 4) * 1 + 1 * 0 = win0_2.index t (0 : Fin 4); omega
    | ⟨1, _⟩ => show win0_1.index t (1 : Fin 4) * 1 + 1 * 0 = 0; omega
    | ⟨2, _⟩ => show win0_1.index t (2 : Fin 4) * 128 + 1 * p.val = win0_2.index t (2 : Fin 4) * 128 + p.val; omega
    | ⟨3, _⟩ => show win0_1.index t (3 : Fin 4) * 2048 + 1 * q.val = q.val; omega
  have h0 : ∀ s : Fin 2, (((cfg0.win 0).blk t).view.emb (ix5 s ch 0 p q) : S2x3x4x2048x2048.Idx) = ix5 s ch N H q := by
    intro s
    funext b; apply Fin.ext
    match b with
    | ⟨0, _⟩ => show win0_0.index t (0 : Fin 5) * 2 + 1 * s.val = s.val; omega
    | ⟨1, _⟩ => show win0_0.index t (1 : Fin 5) * 3 + 1 * ch.val = ch.val; omega
    | ⟨2, _⟩ => show win0_0.index t (2 : Fin 5) * 1 + 1 * 0 = win0_2.index t (0 : Fin 4); omega
    | ⟨3, _⟩ => show win0_0.index t (3 : Fin 5) * 128 + 1 * p.val = win0_2.index t (2 : Fin 4) * 128 + p.val; omega
    | ⟨4, _⟩ => show win0_0.index t (4 : Fin 5) * 2048 + 1 * q.val = q.val; omega
  show blkPix (iblk m c 0 t) (iblk m c 1 t) ch p q
    = blendArr (V m c main_v161) (V m c main_v162) (((cfg0.win 2).blk t).view.emb (ix4 a ch p q))
  rw [hE]
  show FloatOps.addf
      (FloatOps.mulf (FloatOps.subf (Scalar.ofBits .f32 0x3F800000#32)
          (V m c main_v162 (((cfg0.win 1).blk t).view.emb (ix4 0 0 p q))))
        (V m c main_v161 (((cfg0.win 0).blk t).view.emb (ix5 0 ch 0 p q))))
      (FloatOps.mulf (V m c main_v162 (((cfg0.win 1).blk t).view.emb (ix4 0 0 p q)))
        (V m c main_v161 (((cfg0.win 0).blk t).view.emb (ix5 1 ch 0 p q))))
    = blendPix (V m c main_v161) (V m c main_v162) N ch H q
  rw [h1, h0 0, h0 1]
  rfl

/-- An index of the output array is in point `t`'s block iff each coordinate is in the block's range on its axis. -/
theorem mem_blk (t : Fin cfg0.N) (i : S4x3x2048x2048.Idx) :
    i ∈ ((cfg0.win 2).blk t).view.set ↔ ∀ a : Fin 4, win0_2.index t a * S1x3x128x2048.size a ≤ (i a).val
      ∧ (i a).val < win0_2.index t a * S1x3x128x2048.size a + S1x3x128x2048.size a := by
  show i ∈ ((View.whole main_v163).slice (win0_2.rect t)).set ↔ _
  rw [View.set_slice_whole, Rect.mem_set_unit]
  exact Iff.rfl

/-- The 64 blocks tile the output array: pixel row `r` of image `n` is in the block of `(n, r / 128)`. -/
theorem cover (i : S4x3x2048x2048.Idx) :
    ∃ t : Fin cfg0.N, (cfg0.win 2).flush t = true ∧ i ∈ ((cfg0.win 2).blk t).view.set := by
  have hi0 : (i 0).val < 4 := (i 0).isLt
  have hi1 : (i 1).val < 3 := (i 1).isLt
  have hi2 : (i 2).val < 2048 := (i 2).isLt
  have hi3 : (i 3).val < 2048 := (i 3).isLt
  obtain ⟨t, ht⟩ := idx_onto ⟨(i 0).val, hi0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 128 ≤ (i 2).val ∧ (i 2).val < win0_2.index t (2 : Fin 4) * 128 + 128; omega
  | ⟨3, _⟩ => show win0_2.index t (3 : Fin 4) * 2048 ≤ (i 3).val ∧ (i 3).val < win0_2.index t (3 : Fin 4) * 2048 + 2048; omega

/-- THE OUTPUT ARRAY after the run: the blend of the two operand arrays, everywhere. -/
theorem final (c : Dev nD) : (dats m 0 c).arrAt 2 cfg0.N = blendArr (V m c main_v161) (V m c main_v162) :=
  (dats m 0 c).arrAt_eq_of_cover 2 (blendArr (V m c main_v161) (V m c main_v162)) (fun t _ => flushed_eq m c t) cover

/-- The kernel's run with its result array named: the blend of the operand arrays the host program left. -/
theorem run_blend : θ_run defs (onTc (τ := τ) (main (F := F))) ⟨m, fun _ => 0, ρ⟩ fun r => ∀ c : Dev nD,
      r.2.mem ((c : Thread nD τ).loc main_v163) = blendArr (V m c main_v161) (V m c main_v162)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.LutBlend

end
-- ==== Proof.HostValue.lean ====
/-
  The two arrays the kernel's pallas_call is launched on, read off the host program that runs before it: the
  first operand is `corners` of the two argument arrays (the lower and upper blue planes, blended along red
  and green), the second is `blueFrac` of the image (the blue fraction).  Both are the host operations' composed
  terms, operation by operation.
-/
import proofs.«412451_j3358664425830_3_alg».proof.Proof.Gen.KernelIdeal.Frame
import proofs.«412451_j3358664425830_3_alg».proof.Proof.Spec
import Idealize.ShloMosaic.Lib.StableHlo.Run

noncomputable section

namespace Cert.LutBlend

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxRecDepth 16384 in
set_option maxHeartbeats 8000000 in
/-- The blue fraction, as the region finds it in its second operand's array. -/
theorem V_blueFrac (c : Dev nD) :
    (V m c main_v162 : FVec F S4x1x2048x2048 .f32) = blueFrac (m ((c : Thread nD τ).loc main_arg1)) := by
  dsimp only [V]
  simp only [hostOps0]
  after_results_simp
  rfl

set_option maxRecDepth 16384 in
set_option maxHeartbeats 8000000 in
/-- The two blue planes, as the region finds them in its first operand's array. -/
theorem V_corners (c : Dev nD) :
    (V m c main_v161 : FVec F S2x3x4x2048x2048 .f32)
      = corners (m ((c : Thread nD τ).loc main_arg0)) (m ((c : Thread nD τ).loc main_arg1)) := by
  dsimp only [V]
  simp only [hostOps0]
  after_results_simp
  rfl

end Cert.LutBlend

end
-- ==== Proof.Algebra.lean ====
/-
  The arithmetic of the trilinear blend on the extended reals.

  The kernel interpolates in three nested steps — first along the red axis between neighbouring lattice
  values, then along green, then along blue — while the reference forms the eight corner weights
  `(1 - rd or rd) · (1 - gd or gd) · (1 - bd or bd)` and sums the weighted corners.  Over the reals the two
  are one polynomial identity (distributivity); on the extended reals distributivity needs every quantity to be
  a real number, so the identity is stated under that hypothesis, together with the closure facts that show each
  quantity of the two programs is a real number when the inputs are.
-/
import Idealize.ShloMosaic.PureOps.Ideal
import Idealize.ShloMosaic.Lib.IdealHost

namespace Cert.LutBlend

open Idealize.ShloMosaic

/-- An extended real that is a real number (neither infinity). -/
def IsReal (x : EReal) : Prop := ∃ r : ℝ, x = (r : EReal)

theorem isReal_coe (r : ℝ) : IsReal (r : EReal) := ⟨r, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The quotient of a real number by a nonzero real number is a real number. -/
theorem IsReal.div {x y : EReal} (hx : IsReal x) {w : ℝ} (hy : y = (w : EReal)) (hw : w ≠ 0) : IsReal (Ideal.div x y) := by
  subst hy
  rw [Ideal.div_coe hw]
  exact hx.mul (isReal_coe _)

/-- Rounding a real number to an integer gives a real number. -/
theorem IsReal.liftRound {x : EReal} (hx : IsReal x) (f : ℝ → ℤ) : IsReal (Ideal.liftRound f x) := by
  obtain ⟨a, rfl⟩ := hx; exact ⟨(f a : ℝ), rfl⟩

/-- A real number is neither infinity, and conversely. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- The lattice spacing's f32 pattern `0x3D000008` (the f32 nearest to 1.000001 / 32) is a nonzero real number. -/
theorem spacing_real : ∃ w : ℝ, w ≠ 0 ∧ Ideal.ofBits .f32 0x3D000008#32 = (w : EReal) := by
  refine ⟨(8388616 : ℝ) * (2 : ℝ) ^ (-28 : ℤ), by positivity, ?_⟩
  simp [Ideal.ofBits, Ideal.ieee, -EReal.coe_mul]

/-- THE IDENTITY: the nested interpolation (red inside green inside blue) is the sum of the eight corners each
    weighted by the product of its three one-axis weights, when every quantity is a real number. -/
theorem trilinear {rd gd bd g0 g1 g2 g3 g4 g5 g6 g7 : EReal}
    (hrd : IsReal rd) (hgd : IsReal gd) (hbd : IsReal bd)
    (h0 : IsReal g0) (h1 : IsReal g1) (h2 : IsReal g2) (h3 : IsReal g3)
    (h4 : IsReal g4) (h5 : IsReal g5) (h6 : IsReal g6) (h7 : IsReal g7) :
    (1 - bd) * ((1 - gd) * ((1 - rd) * g0 + rd * g1) + gd * ((1 - rd) * g2 + rd * g3))
      + bd * ((1 - gd) * ((1 - rd) * g4 + rd * g5) + gd * ((1 - rd) * g6 + rd * g7))
    = (1 - rd) * (1 - gd) * (1 - bd) * g0 + rd * (1 - gd) * (1 - bd) * g1
      + (1 - rd) * gd * (1 - bd) * g2 + rd * gd * (1 - bd) * g3
      + (1 - rd) * (1 - gd) * bd * g4 + rd * (1 - gd) * bd * g5
      + (1 - rd) * gd * bd * g6 + rd * gd * bd * g7 := by
  obtain ⟨rd, rfl⟩ := hrd; obtain ⟨gd, rfl⟩ := hgd; obtain ⟨bd, rfl⟩ := hbd
  obtain ⟨g0, rfl⟩ := h0; obtain ⟨g1, rfl⟩ := h1; obtain ⟨g2, rfl⟩ := h2; obtain ⟨g3, rfl⟩ := h3
  obtain ⟨g4, rfl⟩ := h4; obtain ⟨g5, rfl⟩ := h5; obtain ⟨g6, rfl⟩ := h6; obtain ⟨g7, rfl⟩ := h7
  have e1 : (1 : EReal) = ((1 : ℝ) : EReal) := rfl
  simp only [e1, ← EReal.coe_sub, ← EReal.coe_mul, ← EReal.coe_add]
  exact congrArg _ (by ring)

end Cert.LutBlend
-- ==== Proof.SpecAt.lean ====
/-
  The named array functions read at an index, at the ideal instance: each layout operation names the operand
  index it reads, each arithmetic operation is the extended reals' own.  At output pixel `(n, h, w)`, channel
  `c`, the kernel's result is the blue blend of the green blend of the red blend of the cell's eight corners.
  Also here: every quantity entering the blend is a real number when the table and the image hold real numbers.
-/
import proofs.«412451_j3358664425830_3_alg».proof.Proof.Spec
import proofs.«412451_j3358664425830_3_alg».proof.Proof.Algebra
import Idealize.ShloMosaic.Lib.Pipeline.Value
import Idealize.ShloMosaic.Lib.ValueIdx
import Idealize.ShloMosaic.Lib.IdealHost

noncomputable section

namespace Cert.LutBlend

open Idealize.ShloMosaic Idealize.ShloMosaic.TcCoe Idealize.ShloMosaic.ValueIdx
open Cert.KernelIdeal Cert.KernelIdeal.Gen

/-! ## Layout operations at an index -/

/-- A per-pixel array given a leading unit axis reads its pixel. -/
theorem weight1_apply {F : FTy → Type} [FloatOps F] (t : FVec F S4x2048x2048 .f32) (n : Fin 4) (h w : Fin 2048) :
    weight1 t (ix4 0 n h w) = t (ix3 n h w) :=
  broadcastInDim_apply _ _ t (ix4 0 n h w) (ix3 n h w)
    (fun a => by match a with | ⟨0, _⟩ => rfl | ⟨1, _⟩ => rfl | ⟨2, _⟩ => rfl)

/-- A unit leading axis spread over the three channels reads the unit axis. -/
theorem chan3_apply {α : Type} (u : S1x4x2048x2048.Idx → α) (c : Fin 3) (n : Fin 4) (h w : Fin 2048) :
    broadcastInDim S3x4x2048x2048 ![0, 1, 2, 3] bcast_S1x4x2048x2048_S3x4x2048x2048_0_1_2_3 u (ix4 c n h w) = u (ix4 0 n h w) :=
  broadcastInDim_apply _ _ u (ix4 c n h w) (ix4 0 n h w)
    (fun a => by match a with | ⟨0, _⟩ => rfl | ⟨1, _⟩ => rfl | ⟨2, _⟩ => rfl | ⟨3, _⟩ => rfl)

/-- The constant one on the unit-axis shape. -/
theorem one1_apply (j : S1x4x2048x2048.Idx) :
    broadcastInDim S1x4x2048x2048 ![] bcast_S_S1x4x2048x2048 (constant (F := Ideal) S_ .f32 0x3F800000#32) j = 1 := by
  rw [broadcastInDim_apply _ _ _ j ix0 (fun a => a.elim0), constant_apply, Ideal.ofBits_one_f32]

/-- A plane under a new leading unit axis. -/
theorem lead1_apply {α : Type} (p : S3x4x2048x2048.Idx → α) (c : Fin 3) (n : Fin 4) (h w : Fin 2048) :
    broadcastInDim S1x3x4x2048x2048 ![1, 2, 3, 4] bcast_S3x4x2048x2048_S1x3x4x2048x2048_1_2_3_4 p (ix5 0 c n h w) = p (ix4 c n h w) :=
  broadcastInDim_apply _ _ p (ix5 0 c n h w) (ix4 c n h w)
    (fun a => by match a with | ⟨0, _⟩ => rfl | ⟨1, _⟩ => rfl | ⟨2, _⟩ => rfl | ⟨3, _⟩ => rfl)

/-- The lower plane of the stack. -/
theorem stack2_apply0 {F : FTy → Type} [FloatOps F] (p0 p1 : FVec F S3x4x2048x2048 .f32) (c : Fin 3) (n : Fin 4) (h w : Fin 2048) :
    stack2 p0 p1 (ix5 0 c n h w) = p0 (ix4 c n h w) := by
  unfold stack2
  exact (concatenate_pair_apply_left (t := S2x3x4x2048x2048) (s₁ := S1x3x4x2048x2048) (s₂ := S1x3x4x2048x2048)
    (0 : Fin S2x3x4x2048x2048.rank) _ _ concatenates_S1x3x4x2048x2048_S1x3x4x2048x2048_S2x3x4x2048x2048_d0
    (ix5 0 c n h w) rfl (ix5 0 c n h w)
    (fun b => by match b with | ⟨0, _⟩ => rfl | ⟨1, _⟩ => rfl | ⟨2, _⟩ => rfl | ⟨3, _⟩ => rfl | ⟨4, _⟩ => rfl)).trans (lead1_apply p0 c n h w)

/-- The upper plane of the stack. -/
theorem stack2_apply1 {F : FTy → Type} [FloatOps F] (p0 p1 : FVec F S3x4x2048x2048 .f32) (c : Fin 3) (n : Fin 4) (h w : Fin 2048) :
    stack2 p0 p1 (ix5 1 c n h w) = p1 (ix4 c n h w) := by
  unfold stack2
  exact (concatenate_pair_apply_right (t := S2x3x4x2048x2048) (s₁ := S1x3x4x2048x2048) (s₂ := S1x3x4x2048x2048)
    (0 : Fin S2x3x4x2048x2048.rank) _ _ concatenates_S1x3x4x2048x2048_S1x3x4x2048x2048_S2x3x4x2048x2048_d0
    (ix5 1 c n h w) rfl rfl (ix5 0 c n h w)
    (fun b hb => by match b with | ⟨0, _⟩ => exact absurd rfl hb | ⟨1, _⟩ => rfl | ⟨2, _⟩ => rfl | ⟨3, _⟩ => rfl | ⟨4, _⟩ => rfl) rfl).trans
    (lead1_apply p1 c n h w)

/-- The blue fraction under its unit channel axis. -/
theorem blueFrac_apply {F : FTy → Type} [FloatOps F] (x : FVec F S4x3x2048x2048 .f32) (n : Fin 4) (h w : Fin 2048) :
    blueFrac x (ix4 n 0 h w) = frac (blue x) (ix3 n h w) :=
  broadcastInDim_apply _ _ (frac (blue x)) (ix4 n 0 h w) (ix3 n h w)
    (fun a => by match a with | ⟨0, _⟩ => rfl | ⟨1, _⟩ => rfl | ⟨2, _⟩ => rfl)

/-! ## The blends at an index -/

/-- `lerp` at a channel of a pixel. -/
theorem lerp_apply (t : FVec Ideal S4x2048x2048 .f32) (a b : FVec Ideal S3x4x2048x2048 .f32) (c : Fin 3) (n : Fin 4) (h w : Fin 2048) :
    lerp t a b (ix4 c n h w) = (1 - t (ix3 n h w)) * a (ix4 c n h w) + t (ix3 n h w) * b (ix4 c n h w) := by
  unfold lerp
  rw [addf_apply, mulf_apply, mulf_apply, chan3_apply, chan3_apply, subf_apply, one1_apply, weight1_apply]

/-- The kernel body's blend of the two planes at a channel of a pixel, on the extended reals. -/
theorem blendPix_ideal (cr : S2x3x4x2048x2048.Idx → Ideal .f32) (bd : S4x1x2048x2048.Idx → Ideal .f32) (n : Fin 4) (c : Fin 3) (h w : Fin 2048) :
    blendPix (F := Ideal) cr bd n c h w
      = (1 - bd (ix4 n 0 h w)) * cr (ix5 0 c n h w) + bd (ix4 n 0 h w) * cr (ix5 1 c n h w) := by
  show (Ideal.ofBits .f32 0x3F800000#32 - bd (ix4 n 0 h w)) * cr (ix5 0 c n h w) + bd (ix4 n 0 h w) * cr (ix5 1 c n h w) = _
  rw [Ideal.ofBits_one_f32]

/-- THE KERNEL'S VALUE at a channel of a pixel: blue blend of green blends of red blends of the eight corners. -/
theorem kernel_apply (lut : FVec Ideal S3x33x33x33 .f32) (x : FVec Ideal S4x3x2048x2048 .f32) (n : Fin 4) (c : Fin 3) (h w : Fin 2048) :
    blendArr (F := Ideal) (corners lut x) (blueFrac x) (ix4 n c h w)
      = (1 - frac (blue x) (ix3 n h w))
          * ((1 - frac (green x) (ix3 n h w))
              * ((1 - frac (red x) (ix3 n h w)) * corner (flatTable lut) (base x) 0#32 (ix4 c n h w)
                  + frac (red x) (ix3 n h w) * corner (flatTable lut) (base x) 1#32 (ix4 c n h w))
            + frac (green x) (ix3 n h w)
              * ((1 - frac (red x) (ix3 n h w)) * corner (flatTable lut) (base x) 33#32 (ix4 c n h w)
                  + frac (red x) (ix3 n h w) * corner (flatTable lut) (base x) 34#32 (ix4 c n h w)))
        + frac (blue x) (ix3 n h w)
          * ((1 - frac (green x) (ix3 n h w))
              * ((1 - frac (red x) (ix3 n h w)) * corner (flatTable lut) (base x) 1089#32 (ix4 c n h w)
                  + frac (red x) (ix3 n h w) * corner (flatTable lut) (base x) 1090#32 (ix4 c n h w))
            + frac (green x) (ix3 n h w)
              * ((1 - frac (red x) (ix3 n h w)) * corner (flatTable lut) (base x) 1122#32 (ix4 c n h w)
                  + frac (red x) (ix3 n h w) * corner (flatTable lut) (base x) 1123#32 (ix4 c n h w))) := by
  show blendPix (F := Ideal) (corners lut x) (blueFrac x) n c h w = _
  rw [blendPix_ideal, blueFrac_apply]
  unfold corners plane
  rw [stack2_apply0, stack2_apply1]
  simp only [lerp_apply]

/-! ## Every quantity of the blend is a real number -/

/-- A colour channel reads the image. -/
theorem red_apply {F : FTy → Type} [FloatOps F] (x : FVec F S4x3x2048x2048 .f32) (j : S4x2048x2048.Idx) : ∃ k, red x j = x k := by
  unfold red shapeCast extractStridedSlice; exact ⟨_, rfl⟩
theorem green_apply {F : FTy → Type} [FloatOps F] (x : FVec F S4x3x2048x2048 .f32) (j : S4x2048x2048.Idx) : ∃ k, green x j = x k := by
  unfold green shapeCast extractStridedSlice; exact ⟨_, rfl⟩
theorem blue_apply {F : FTy → Type} [FloatOps F] (x : FVec F S4x3x2048x2048 .f32) (j : S4x2048x2048.Idx) : ∃ k, blue x j = x k := by
  unfold blue shapeCast extractStridedSlice; exact ⟨_, rfl⟩

/-- The spacing at a pixel is the one f32 constant. -/
theorem spacing_apply (j : S4x2048x2048.Idx) : spacing (F := Ideal) j = Ideal.ofBits .f32 0x3D000008#32 := by
  unfold spacing
  rw [broadcastInDim_apply _ _ _ j ix0 (fun a => a.elim0), constant_apply]

/-- The fractional position of a real value is a real number. -/
theorem frac_isReal (v : FVec Ideal S4x2048x2048 .f32) (j : S4x2048x2048.Idx) (hv : IsReal (v j)) : IsReal (frac v j) := by
  obtain ⟨s, hs0, hs⟩ := spacing_real
  have e : frac v j = Ideal.div (v j - ((((Ideal.fptosi 32 (Ideal.liftRound Int.floor (Ideal.div (v j) (spacing (F := Ideal) j)))).toInt : ℝ) : EReal)) * spacing (F := Ideal) j) (spacing (F := Ideal) j) := rfl
  rw [e, spacing_apply]
  exact (hv.sub ((isReal_coe _).mul ⟨s, hs⟩)).div hs hs0

/-- A corner is an entry of the table. -/
theorem corner_isReal (tab : FVec Ideal S3x35937 .f32) (b : IVec S4x2048x2048 32) (off : BitVec 32) (j : S3x4x2048x2048.Idx)
    (htab : ∀ k, IsReal (tab k)) : IsReal (corner tab b off j) := by
  unfold corner Host.gather; exact htab _

/-- The flattened table holds the table's entries. -/
theorem flatTable_isReal (lut : FVec Ideal S3x33x33x33 .f32) (hlut : ∀ k, IsReal (lut k)) (k : S3x35937.Idx) : IsReal (flatTable lut k) := by
  unfold flatTable shapeCast; exact hlut _

end Cert.LutBlend

end
-- ==== Proof.RefValue.lean ====
/-
  The reference's result, read the same way.  The reference forms, per pixel, the eight corner weights
  `(1 - rd or rd) · (1 - gd or gd) · (1 - bd or bd)`, spreads each over the three channels, multiplies by the
  corner's table entries and sums the eight products left to right; last it swaps the channel and image axes.
  Its fractions, its flat index and its corners are the kernel's own host functions of the same arrays — the flat
  index up to `(b · 33) · 33 = b · 1089` on 32-bit words.
-/
import proofs.«412451_j3358664425830_3_alg».proof.Proof.Gen.ReferenceIdeal.Run
import proofs.«412451_j3358664425830_3_alg».proof.Proof.Spec
import proofs.«412451_j3358664425830_3_alg».proof.Proof.Algebra
import Idealize.ShloMosaic.Lib.Pipeline.Value
import Idealize.ShloMosaic.Lib.ValueIdx
import Idealize.ShloMosaic.Lib.IdealHost

noncomputable section

namespace Cert.LutBlend.Ref

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Value

variable {F : FTy → Type} [FloatOps F]

/-- One at every pixel. -/
def onePix : FVec F S4x2048x2048 .f32 := (broadcastInDim S4x2048x2048 ![] bcast_S_S4x2048x2048 (constant S_ .f32 0x3F800000#32))

/-- A per-pixel weight spread over the three channels. -/
def spread (u : FVec F S4x2048x2048 .f32) : FVec F S3x4x2048x2048 .f32 :=
  broadcastInDim S3x4x2048x2048 ![0, 1, 2, 3] bcast_S1x4x2048x2048_S3x4x2048x2048_0_1_2_3
    (broadcastInDim S1x4x2048x2048 ![1, 2, 3] bcast_S4x2048x2048_S1x4x2048x2048_1_2_3 u)

/-- The reference's result from the three fraction arrays and the eight corner arrays: the weighted sum, then the
    channel and image axes swapped. -/
def refSum (rd gd bd : FVec F S4x2048x2048 .f32) (g0 g1 g2 g3 g4 g5 g6 g7 : FVec F S3x4x2048x2048 .f32) : FVec F S4x3x2048x2048 .f32 :=
  transpose S4x3x2048x2048 [1, 0, 2, 3]
    (addf (addf (addf (addf (addf (addf (addf
      (mulf (spread (mulf (mulf (subf onePix rd) (subf onePix gd)) (subf onePix bd))) g0)
      (mulf (spread (mulf (mulf rd (subf onePix gd)) (subf onePix bd))) g1))
      (mulf (spread (mulf (mulf (subf onePix rd) gd) (subf onePix bd))) g2))
      (mulf (spread (mulf (mulf rd gd) (subf onePix bd))) g3))
      (mulf (spread (mulf (mulf (subf onePix rd) (subf onePix gd)) bd)) g4))
      (mulf (spread (mulf (mulf rd (subf onePix gd)) bd)) g5))
      (mulf (spread (mulf (mulf (subf onePix rd) gd) bd)) g6))
      (mulf (spread (mulf (mulf rd gd) bd)) g7))
    transposes_S3x4x2048x2048_S4x3x2048x2048_1_0_2_3

/-! ## At an index -/

theorem onePix_apply (j : S4x2048x2048.Idx) : onePix (F := Ideal) j = 1 := by
  unfold onePix
  rw [broadcastInDim_apply _ _ _ j ix0 (fun a => a.elim0), constant_apply, Ideal.ofBits_one_f32]

theorem spread_apply {F : FTy → Type} [FloatOps F] (u : FVec F S4x2048x2048 .f32) (c : Fin 3) (n : Fin 4) (h w : Fin 2048) :
    spread u (ix4 c n h w) = u (ix3 n h w) := by
  unfold spread
  rw [broadcastInDim_apply _ _ _ (ix4 c n h w) (ix4 0 n h w)
      (fun a => by match a with | ⟨0, _⟩ => rfl | ⟨1, _⟩ => rfl | ⟨2, _⟩ => rfl | ⟨3, _⟩ => rfl),
    broadcastInDim_apply _ _ u (ix4 0 n h w) (ix3 n h w)
      (fun a => by match a with | ⟨0, _⟩ => rfl | ⟨1, _⟩ => rfl | ⟨2, _⟩ => rfl)]

/-- THE REFERENCE'S VALUE at a channel of a pixel: the eight corners, each under the product of its three weights. -/
theorem refSum_apply (rd gd bd : FVec Ideal S4x2048x2048 .f32) (g0 g1 g2 g3 g4 g5 g6 g7 : FVec Ideal S3x4x2048x2048 .f32)
    (n : Fin 4) (c : Fin 3) (h w : Fin 2048) :
    refSum rd gd bd g0 g1 g2 g3 g4 g5 g6 g7 (ix4 n c h w)
      = (1 - rd (ix3 n h w)) * (1 - gd (ix3 n h w)) * (1 - bd (ix3 n h w)) * g0 (ix4 c n h w)
        + rd (ix3 n h w) * (1 - gd (ix3 n h w)) * (1 - bd (ix3 n h w)) * g1 (ix4 c n h w)
        + (1 - rd (ix3 n h w)) * gd (ix3 n h w) * (1 - bd (ix3 n h w)) * g2 (ix4 c n h w)
        + rd (ix3 n h w) * gd (ix3 n h w) * (1 - bd (ix3 n h w)) * g3 (ix4 c n h w)
        + (1 - rd (ix3 n h w)) * (1 - gd (ix3 n h w)) * bd (ix3 n h w) * g4 (ix4 c n h w)
        + rd (ix3 n h w) * (1 - gd (ix3 n h w)) * bd (ix3 n h w) * g5 (ix4 c n h w)
        + (1 - rd (ix3 n h w)) * gd (ix3 n h w) * bd (ix3 n h w) * g6 (ix4 c n h w)
        + rd (ix3 n h w) * gd (ix3 n h w) * bd (ix3 n h w) * g7 (ix4 c n h w) := by
  unfold refSum
  rw [transpose_apply _ _ _ (ix4 n c h w) (ix4 c n h w)
    (fun b => by match b with | ⟨0, _⟩ => rfl | ⟨1, _⟩ => rfl | ⟨2, _⟩ => rfl | ⟨3, _⟩ => rfl)]
  simp only [addf_apply, mulf_apply, subf_apply, spread_apply, onePix_apply]

/-! ## The run's term is `refSum` of the kernel's host functions -/

/-- On 32-bit words `(b · 33) · 33 = b · 1089`. -/
theorem mul33 (u : BitVec 32) : IntOp.muli (IntOp.muli u 33#32) 33#32 = IntOp.muli u 1089#32 := by
  show (u * 33#32) * 33#32 = u * 1089#32
  rw [BitVec.mul_assoc]
  rfl

/-- The reference's flat index is the kernel's. -/
theorem base_eq (V0 : Valuation τ sig (Elt F)) : res_main_v44 V0 = Cert.LutBlend.base (V0 (Proc.devRef .tc main_arg1)) := by
  funext j
  show IntOp.addi (IntOp.addi (res_main_v9 V0 j) (IntOp.muli (res_main_v13 V0 j) 33#32)) (IntOp.muli (IntOp.muli (res_main_v17 V0 j) 33#32) 33#32)
    = IntOp.addi (IntOp.addi (res_main_v9 V0 j) (IntOp.muli (res_main_v13 V0 j) 33#32)) (IntOp.muli (res_main_v17 V0 j) 1089#32)
  rw [mul33]

set_option maxRecDepth 8192 in
/-- The reference run's result term is the weighted sum of the kernel's own fractions and corners. -/
theorem result_eq (V0 : Valuation τ sig (Elt F)) :
    transpose S4x3x2048x2048 [1, 0, 2, 3] (addf (addf (addf (res_main_v148 V0) (mulf (broadcastInDim S3x4x2048x2048 ![0, 1, 2, 3] bcast_S1x4x2048x2048_S3x4x2048x2048_0_1_2_3 (broadcastInDim S1x4x2048x2048 ![1, 2, 3] bcast_S4x2048x2048_S1x4x2048x2048_1_2_3 (mulf (mulf (res_main_v23 V0) (subf (broadcastInDim S4x2048x2048 ![] bcast_S_S4x2048x2048 (constant S_ .f32 0x3F800000#32)) (res_main_v29 V0))) (res_main_v35 V0)))) (Host.gather gather_S3x35937_S4x2048x2048x1_S3x4x2048x2048_0_1_n_n_1_3_31 (res_main_v36 V0) (broadcastInDim S4x2048x2048x1 ![0, 1, 2] bcast_S4x2048x2048_S4x2048x2048x1_0_1_2 (select (cmpi .slt (res_main_v150 V0) (broadcastInDim S4x2048x2048 ![] bcast_S_S4x2048x2048 (constantI S_ 32 0#32))) (addi (res_main_v150 V0) (broadcastInDim S4x2048x2048 ![] bcast_S_S4x2048x2048 (constantI S_ 32 35937#32))) (res_main_v150 V0)))))) (mulf (broadcastInDim S3x4x2048x2048 ![0, 1, 2, 3] bcast_S1x4x2048x2048_S3x4x2048x2048_0_1_2_3 (broadcastInDim S1x4x2048x2048 ![1, 2, 3] bcast_S4x2048x2048_S1x4x2048x2048_1_2_3 (mulf (mulf (subf (broadcastInDim S4x2048x2048 ![] bcast_S_S4x2048x2048 (constant S_ .f32 0x3F800000#32)) (res_main_v23 V0)) (res_main_v29 V0)) (res_main_v35 V0)))) (Host.gather gather_S3x35937_S4x2048x2048x1_S3x4x2048x2048_0_1_n_n_1_3_31 (res_main_v36 V0) (broadcastInDim S4x2048x2048x1 ![0, 1, 2] bcast_S4x2048x2048_S4x2048x2048x1_0_1_2 (select (cmpi .slt (res_main_v163 V0) (broadcastInDim S4x2048x2048 ![] bcast_S_S4x2048x2048 (constantI S_ 32 0#32))) (addi (res_main_v163 V0) (broadcastInDim S4x2048x2048 ![] bcast_S_S4x2048x2048 (constantI S_ 32 35937#32))) (res_main_v163 V0)))))) (mulf (broadcastInDim S3x4x2048x2048 ![0, 1, 2, 3] bcast_S1x4x2048x2048_S3x4x2048x2048_0_1_2_3 (broadcastInDim S1x4x2048x2048 ![1, 2, 3] bcast_S4x2048x2048_S1x4x2048x2048_1_2_3 (mulf (mulf (res_main_v23 V0) (res_main_v29 V0)) (res_main_v35 V0)))) (Host.gather gather_S3x35937_S4x2048x2048x1_S3x4x2048x2048_0_1_n_n_1_3_31 (res_main_v36 V0) (broadcastInDim S4x2048x2048x1 ![0, 1, 2] bcast_S4x2048x2048_S4x2048x2048x1_0_1_2 (select (cmpi .slt (res_main_v176 V0) (broadcastInDim S4x2048x2048 ![] bcast_S_S4x2048x2048 (constantI S_ 32 0#32))) (addi (res_main_v176 V0) (broadcastInDim S4x2048x2048 ![] bcast_S_S4x2048x2048 (constantI S_ 32 35937#32))) (res_main_v176 V0)))))) transposes_S3x4x2048x2048_S4x3x2048x2048_1_0_2_3
    = refSum (Cert.LutBlend.frac (Cert.LutBlend.red (V0 (Proc.devRef .tc main_arg1))))
        (Cert.LutBlend.frac (Cert.LutBlend.green (V0 (Proc.devRef .tc main_arg1))))
        (Cert.LutBlend.frac (Cert.LutBlend.blue (V0 (Proc.devRef .tc main_arg1))))
        (Cert.LutBlend.corner (Cert.LutBlend.flatTable (V0 (Proc.devRef .tc main_arg0))) (Cert.LutBlend.base (V0 (Proc.devRef .tc main_arg1))) 0#32)
        (Cert.LutBlend.corner (Cert.LutBlend.flatTable (V0 (Proc.devRef .tc main_arg0))) (Cert.LutBlend.base (V0 (Proc.devRef .tc main_arg1))) 1#32)
        (Cert.LutBlend.corner (Cert.LutBlend.flatTable (V0 (Proc.devRef .tc main_arg0))) (Cert.LutBlend.base (V0 (Proc.devRef .tc main_arg1))) 33#32)
        (Cert.LutBlend.corner (Cert.LutBlend.flatTable (V0 (Proc.devRef .tc main_arg0))) (Cert.LutBlend.base (V0 (Proc.devRef .tc main_arg1))) 34#32)
        (Cert.LutBlend.corner (Cert.LutBlend.flatTable (V0 (Proc.devRef .tc main_arg0))) (Cert.LutBlend.base (V0 (Proc.devRef .tc main_arg1))) 1089#32)
        (Cert.LutBlend.corner (Cert.LutBlend.flatTable (V0 (Proc.devRef .tc main_arg0))) (Cert.LutBlend.base (V0 (Proc.devRef .tc main_arg1))) 1090#32)
        (Cert.LutBlend.corner (Cert.LutBlend.flatTable (V0 (Proc.devRef .tc main_arg0))) (Cert.LutBlend.base (V0 (Proc.devRef .tc main_arg1))) 1122#32)
        (Cert.LutBlend.corner (Cert.LutBlend.flatTable (V0 (Proc.devRef .tc main_arg0))) (Cert.LutBlend.base (V0 (Proc.devRef .tc main_arg1))) 1123#32) := by
  rw [← base_eq V0]
  rfl

end Cert.LutBlend.Ref

end
-- ==== Proof.Bridge.lean ====
/-
  The two values are one: at every channel of every pixel the kernel's nested blend of the cell's eight corners is
  the reference's weighted sum of them (`trilinear`), every fraction and every corner being a real number because
  the table's and the image's entries are.
-/
import proofs.«412451_j3358664425830_3_alg».proof.Proof.SpecAt
import proofs.«412451_j3358664425830_3_alg».proof.Proof.RefValue

noncomputable section

namespace Cert.LutBlend

open Idealize.ShloMosaic Idealize.ShloMosaic.TcCoe Idealize.ShloMosaic.ValueIdx
open Cert.KernelIdeal Cert.KernelIdeal.Gen

/-- The kernel's result array is the reference's, for a table and an image of real numbers. -/
theorem values_eq (lut : FVec Ideal S3x33x33x33 .f32) (x : FVec Ideal S4x3x2048x2048 .f32)
    (hlut : ∀ k, IsReal (lut k)) (hx : ∀ k, IsReal (x k)) :
    blendArr (F := Ideal) (corners lut x) (blueFrac x)
      = Ref.refSum (frac (red x)) (frac (green x)) (frac (blue x))
          (corner (flatTable lut) (base x) 0#32) (corner (flatTable lut) (base x) 1#32)
          (corner (flatTable lut) (base x) 33#32) (corner (flatTable lut) (base x) 34#32)
          (corner (flatTable lut) (base x) 1089#32) (corner (flatTable lut) (base x) 1090#32)
          (corner (flatTable lut) (base x) 1122#32) (corner (flatTable lut) (base x) 1123#32) := by
  funext i
  obtain ⟨n, ch, h, w, rfl⟩ : ∃ (n : Fin 4) (ch : Fin 3) (h w : Fin 2048), i = ix4 n ch h w :=
    ⟨i 0, i 1, i 2, i 3, eq_ix4 i⟩
  have hr : IsReal (frac (red x) (ix3 n h w)) := by
    refine frac_isReal _ _ ?_
    obtain ⟨k, hk⟩ := red_apply x (ix3 n h w); rw [hk]; exact hx k
  have hg : IsReal (frac (green x) (ix3 n h w)) := by
    refine frac_isReal _ _ ?_
    obtain ⟨k, hk⟩ := green_apply x (ix3 n h w); rw [hk]; exact hx k
  have hb : IsReal (frac (blue x) (ix3 n h w)) := by
    refine frac_isReal _ _ ?_
    obtain ⟨k, hk⟩ := blue_apply x (ix3 n h w); rw [hk]; exact hx k
  have hc : ∀ off, IsReal (corner (flatTable lut) (base x) off (ix4 ch n h w)) :=
    fun off => corner_isReal _ _ off _ (flatTable_isReal lut hlut)
  rw [kernel_apply]
  refine (trilinear hr hg hb (hc _) (hc _) (hc _) (hc _) (hc _) (hc _) (hc _) (hc _)).trans ?_
  exact (Ref.refSum_apply _ _ _ _ _ _ _ _ _ _ _ n ch h w).symm

/-- The same with the reference's arguments named apart: they are the kernel's by hypothesis. -/
theorem ref_eq_kernel (lut lut' : FVec Ideal S3x33x33x33 .f32) (x x' : FVec Ideal S4x3x2048x2048 .f32)
    (h0 : lut' = lut) (h1 : x' = x) (hlut : ∀ k, IsReal (lut k)) (hx : ∀ k, IsReal (x k)) :
    Ref.refSum (frac (red x')) (frac (green x')) (frac (blue x'))
        (corner (flatTable lut') (base x') 0#32) (corner (flatTable lut') (base x') 1#32)
        (corner (flatTable lut') (base x') 33#32) (corner (flatTable lut') (base x') 34#32)
        (corner (flatTable lut') (base x') 1089#32) (corner (flatTable lut') (base x') 1090#32)
        (corner (flatTable lut') (base x') 1122#32) (corner (flatTable lut') (base x') 1123#32)
      = blendArr (F := Ideal) (corners lut x) (blueFrac x) := by
  subst h0; subst h1
  exact (values_eq lut' x' hlut hx).symm

end Cert.LutBlend

end
-- ==== Proof.Finite.lean ====
/-
  From the precondition to real numbers.  The precondition says `|a| < +∞` at every entry of the table and of
  the image (two `jnp.all`s joined by `and`); an extended real whose absolute value is below `+∞` is neither
  infinity, so every entry is a real number.
-/
import proofs.«412451_j3358664425830_3_alg».proof.Pre_finite_inputs
import proofs.«412451_j3358664425830_3_alg».proof.Proof.Algebra
import Idealize.ShloMosaic.Lib.ReduceAll
import Idealize.ShloMosaic.PureOps.Ideal.Laws
import Idealize.ShloMosaic.Lib.ValueIdx
import Idealize.ShloMosaic.Lib.Pipeline.Value

noncomputable section

namespace Cert.LutBlend

open Idealize.ShloMosaic Idealize.ShloMosaic.ValueIdx

instance : Subsingleton Cert.Pre_finite_inputs.S_.Idx := ⟨fun a b => funext fun d => d.elim0⟩

/-- An extended real whose absolute value compares below the f32 pattern of `+∞` is a real number. -/
theorem isReal_of_abs_lt_inf (v : EReal)
    (h : FloatOps.cmpf (F := Ideal) (φ := .f32) .olt (FloatOps.hostAbsf (F := Ideal) (φ := .f32) v) (Ideal.ofBits .f32 0x7F800000#32) = 1#1) :
    IsReal v := by
  have hinf : Ideal.ofBits .f32 0x7F800000#32 = ⊤ := by simp [Ideal.ofBits, Ideal.ieee]
  rw [hinf] at h
  induction v using EReal.rec with
  | bot => exact absurd h (by simp [Ideal.cmpf_def, Ideal.cmp, Ideal.hostAbsf_def, Ideal.absf_def])
  | top => exact absurd h (by simp [Ideal.cmpf_def, Ideal.cmp, Ideal.hostAbsf_def, Ideal.absf_def])
  | coe r => exact ⟨r, rfl⟩

/-- Under the precondition every entry of the table and every entry of the image is a real number. -/
theorem real_of_pre [Cert.Pre_finite_inputs.Facts]
    (a0 : FVec Ideal Cert.Pre_finite_inputs.S3x33x33x33 .f32) (a1 : FVec Ideal Cert.Pre_finite_inputs.S4x3x2048x2048 .f32)
    (h : Cert.Pre_finite_inputs.fn (F := Ideal) a0 a1 = fun _ => 1#1) :
    (∀ i, IsReal (a0 i)) ∧ (∀ i, IsReal (a1 i)) := by
  have h0 := congrFun h ix0
  dsimp only [Cert.Pre_finite_inputs.fn] at h0
  obtain ⟨e0, e1⟩ := IntOp.andi_eq_one.1 h0
  refine ⟨fun i => ?_, fun i => ?_⟩
  · have := Host.reduce_andi_all _ _ _ _ ix0 e0 i
    refine isReal_of_abs_lt_inf (a0 i) ?_
    rw [← this]
    rfl
  · have := Host.reduce_andi_all _ _ _ _ ix0 e1 i
    refine isReal_of_abs_lt_inf (a1 i) ?_
    rw [← this]
    rfl

end Cert.LutBlend

end
-- ==== Proof.lean ====
/-
  The certificate of a 3-D colour table applied by trilinear interpolation.

  For every pixel the three colour values pick a cell of a 33 × 33 × 33 lattice and a fractional position
  `(rd, gd, bd)` inside it; the result is the trilinear interpolation of the table's eight entries at the cell's
  corners.  The kernel's host program gathers the corners and interpolates along red and green; its pallas_call
  interpolates the two resulting planes along blue, block by block.  The reference sums the eight corners, each
  under the product of its three one-axis weights.  Both read the same corners (the same gathers of the same
  flat indices, `(b · 33) · 33 = b · 1089` on 32-bit words) with the same fractions, and with every quantity a
  real number — the table and the image are finite by the precondition — the nested interpolation equals the
  weighted sum by distributivity.

  The three frames are the generated ones (the reference's is its generated run with the result dropped); the
  ideal pass rewrote nothing, so `preserves` is trivial.
-/
import proofs.«412451_j3358664425830_3_alg».proof.Defs
import proofs.«412451_j3358664425830_3_alg».proof.Proof.Gen.Kernel
import proofs.«412451_j3358664425830_3_alg».proof.Proof.Gen.Kernel.Skeleton
import proofs.«412451_j3358664425830_3_alg».proof.Proof.Gen.Kernel.Launch
import proofs.«412451_j3358664425830_3_alg».proof.Proof.Gen.Kernel.Points
import proofs.«412451_j3358664425830_3_alg».proof.Proof.Gen.Kernel.Frame
import proofs.«412451_j3358664425830_3_alg».proof.Proof.Gen.KernelIdeal
import proofs.«412451_j3358664425830_3_alg».proof.Proof.Gen.KernelIdeal.Skeleton
import proofs.«412451_j3358664425830_3_alg».proof.Proof.Gen.KernelIdeal.Launch
import proofs.«412451_j3358664425830_3_alg».proof.Proof.Gen.KernelIdeal.Points
import proofs.«412451_j3358664425830_3_alg».proof.Proof.Gen.KernelIdeal.Frame
import proofs.«412451_j3358664425830_3_alg».proof.Proof.Gen.ReferenceIdeal
import proofs.«412451_j3358664425830_3_alg».proof.Proof.Gen.Pre_finite_inputs
import proofs.«412451_j3358664425830_3_alg».proof.Proof.Gen.KernelIdeal.Value
import proofs.«412451_j3358664425830_3_alg».proof.Proof.Gen.ReferenceIdeal.Run
import proofs.«412451_j3358664425830_3_alg».proof.Proof.KernelValue
import proofs.«412451_j3358664425830_3_alg».proof.Proof.HostValue
import proofs.«412451_j3358664425830_3_alg».proof.Proof.Bridge
import proofs.«412451_j3358664425830_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array is the blend of the host program's two planes by the blue fraction; the reference's
    is the weighted sum of the same corners; the two agree index by index on real inputs. -/
theorem algebraic : Cert.algebraic_KernelIdeal_ReferenceIdeal := by
  intro m ρ m' ρ' hpre hagree
  refine ⟨_, Cert.LutBlend.run_blend m ρ, ?_⟩
  refine (θ_run Cert.ReferenceIdeal.defs _ _).mono (fun _ h c => ⟨(h c).1.trans ?_, (h c).2⟩)
    (Cert.ReferenceIdeal.Value.run (F := Ideal) m' ρ')
  obtain ⟨hlut, hx⟩ := Cert.LutBlend.real_of_pre _ _ (hpre c)
  have hV : Cert.LutBlend.blendArr (Cert.KernelIdeal.Gen.V m c Cert.KernelIdeal.main_v161)
        (Cert.KernelIdeal.Gen.V m c Cert.KernelIdeal.main_v162)
      = Cert.LutBlend.blendArr (F := Ideal)
          (Cert.LutBlend.corners (F := Ideal) (m ((c : Thread Cert.KernelIdeal.nD Cert.KernelIdeal.τ).loc Cert.KernelIdeal.main_arg0))
            (m ((c : Thread Cert.KernelIdeal.nD Cert.KernelIdeal.τ).loc Cert.KernelIdeal.main_arg1)))
          (Cert.LutBlend.blueFrac (F := Ideal) (m ((c : Thread Cert.KernelIdeal.nD Cert.KernelIdeal.τ).loc Cert.KernelIdeal.main_arg1))) := by
    rw [Cert.LutBlend.V_corners m c, Cert.LutBlend.V_blueFrac m c]
  refine ((Cert.LutBlend.Ref.result_eq (launchContents m' c)).trans ?_).trans hV.symm
  exact Cert.LutBlend.ref_eq_kernel _ _ _ _ (hagree c).1 (hagree c).2 hlut hx

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
